-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S64x64 .f32) (main_arg9 : FVec F S64 .f32) (main_arg10 : FVec F S64x64 .f32) (main_arg11 : FVec F S64x1 .f32) (main_arg12 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x1 .f32 := Host.absf main_arg11
  let main_cst_18 : FVec F S_ .f32 := constant S_ .f32 0x7F800000#32
  let main_v50 : FVec F S64x1 .f32 := broadcastInDim S64x1 ![] bcast_S_S64x1 main_cst_18
  fn_part3 (F := F) main_arg12 main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64x1 .f32) (main_arg12 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S5000x64 : Shape := ⟨2, ![5000, 64]⟩
abbrev S1x1 : Shape := ⟨2, ![1, 1]⟩
abbrev S5000x1 : Shape := ⟨2, ![5000, 1]⟩

abbrev nBuf : Space → Nat
  | .hbm => 84
  | .vmem => 31
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .f32⟩
  | .hbm, ⟨39, _⟩ => ⟨S_, .f32⟩
  | .hbm, ⟨40, _⟩ => ⟨S50000x64, .f32⟩
  | .hbm, ⟨41, _⟩ => ⟨S800000x1, .i32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S1x64, .f32⟩
  | .hbm, ⟨46, _⟩ => ⟨S50000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S_, .f32⟩
  | .hbm, ⟨57, _⟩ => ⟨S50000x64, .f32⟩
  | .hbm, ⟨58, _⟩ => ⟨S800000x1, .i32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S1x64, .f32⟩
  | .hbm, ⟨63, _⟩ => ⟨S50000x64, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x64, .f32⟩
  | .hbm, ⟨73, _⟩ => ⟨S_, .f32⟩
  | .hbm, ⟨74, _⟩ => ⟨S50000x64, .f32⟩
  | .hbm, ⟨75, _⟩ => ⟨S800000x1, .i32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S1x64, .f32⟩
  | .hbm, ⟨80, _⟩ => ⟨S1x1, .f32⟩
  | .hbm, ⟨81, _⟩ => ⟨S50000x64, .f32⟩
  | .hbm, ⟨82, _⟩ => ⟨S50000x1, .f32⟩
  | .hbm, ⟨83, _⟩ => ⟨S50000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S1x64, .f32⟩
  | .local _ .vmem, ⟨24, _⟩ => ⟨S64x64, .f32⟩
  | .local _ .vmem, ⟨25, _⟩ => ⟨S64x1, .f32⟩
  | .local _ .vmem, ⟨26, _⟩ => ⟨S1x1, .f32⟩
  | .local _ .vmem, ⟨27, _⟩ => ⟨S5000x64, .f32⟩
  | .local _ .vmem, ⟨28, _⟩ => ⟨S5000x64, .f32⟩
  | .local _ .vmem, ⟨29, _⟩ => ⟨S5000x1, .f32⟩
  | .local _ .vmem, ⟨30, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55_0 : Ref sig .tc := ⟨.hbm, 81, rfl⟩
abbrev main_v55_1 : Ref sig .tc := ⟨.hbm, 82, rfl⟩
abbrev main_v56 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc2_stg8_0 : Ref sig .tc := ⟨.vmem, 29, rfl⟩
abbrev cc2_stg8_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28
abbrev cc2_sem8_0 : DmaSem sig := 29
abbrev cc2_sem8_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x1.size a ≤ S64x1.size a
  hwx2_5 : ∀ i : grid2.Coords, EltTy.bits .f32 = 32 ∨ (Rect.block (s := S64x1) S64x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .f32 = 32 ∨ (Rect.block (s := S50000x64) S5000x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x1.size a ≤ S50000x1.size a
  hwx2_8 : ∀ i : grid2.Coords, EltTy.bits .f32 = 32 ∨ (Rect.block (s := S50000x1) S5000x1.size (cc2_transform_8 i) (hinb2_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v54) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v55_0) S5000x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v55_1) S5000x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .f32⟩
  | .hbm, ⟨39, _⟩ => ⟨S_, .f32⟩
  | .hbm, ⟨40, _⟩ => ⟨S50000x64, .f32⟩
  | .hbm, ⟨41, _⟩ => ⟨S800000x1, .i32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S50000x64, .f32⟩
  | .hbm, ⟨46, _⟩ => ⟨S1x64, .f32⟩
  | .hbm, ⟨47, _⟩ => ⟨S50000x64, .f32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S_, .f32⟩
  | .hbm, ⟨53, _⟩ => ⟨S50000x64, .f32⟩
  | .hbm, ⟨54, _⟩ => ⟨S50000x64, .i1⟩
  | .hbm, ⟨55, _⟩ => ⟨S_, .f32⟩
  | .hbm, ⟨56, _⟩ => ⟨S50000x64, .f32⟩
  | .hbm, ⟨57, _⟩ => ⟨S50000x64, .f32⟩
  | .hbm, ⟨58, _⟩ => ⟨S50000x64, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x64, .f32⟩
  | .hbm, ⟨68, _⟩ => ⟨S_, .f32⟩
  | .hbm, ⟨69, _⟩ => ⟨S50000x64, .f32⟩
  | .hbm, ⟨70, _⟩ => ⟨S800000x1, .i32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S_, .f32⟩
  | .hbm, ⟨81, _⟩ => ⟨S_, .f32⟩
  | .hbm, ⟨82, _⟩ => ⟨S50000x64, .f32⟩
  | .hbm, ⟨83, _⟩ => ⟨S50000x64, .i1⟩
  | .hbm, ⟨84, _⟩ => ⟨S_, .f32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x64, .f32⟩
  | .hbm, ⟨97, _⟩ => ⟨S_, .f32⟩
  | .hbm, ⟨98, _⟩ => ⟨S50000x64, .f32⟩
  | .hbm, ⟨99, _⟩ => ⟨S800000x1, .i32⟩
  | .hbm, ⟨100, _⟩ => ⟨S50000x64, .f32⟩
  | .hbm, ⟨101, _⟩ => ⟨S50000x64, .f32⟩
  | .hbm, ⟨102, _⟩ => ⟨S50000x64, .f32⟩
  | .hbm, ⟨103, _⟩ => ⟨S50000x64, .f32⟩
  | .hbm, ⟨104, _⟩ => ⟨S1x64, .f32⟩
  | .hbm, ⟨105, _⟩ => ⟨S50000x64, .f32⟩
  | .hbm, ⟨106, _⟩ => ⟨S50000x64, .f32⟩
  | .hbm, ⟨107, _⟩ => ⟨S50000x64, .f32⟩
  | .hbm, ⟨108, _⟩ => ⟨S50000x64, .f32⟩
  | .hbm, ⟨109, _⟩ => ⟨S_, .f32⟩
  | .hbm, ⟨110, _⟩ => ⟨S_, .f32⟩
  | .hbm, ⟨111, _⟩ => ⟨S50000x64, .f32⟩
  | .hbm, ⟨112, _⟩ => ⟨S50000x64, .i1⟩
  | .hbm, ⟨113, _⟩ => ⟨S_, .f32⟩
  | .hbm, ⟨114, _⟩ => ⟨S50000x64, .f32⟩
  | .hbm, ⟨115, _⟩ => ⟨S50000x64, .f32⟩
  | .hbm, ⟨116, _⟩ => ⟨S50000x64, .f32⟩
  | .hbm, ⟨117, _⟩ => ⟨S50000x1, .f32⟩
  | .hbm, ⟨118, _⟩ => ⟨S1x1, .f32⟩
  | .hbm, ⟨119, _⟩ => ⟨S50000x1, .f32⟩
  | .hbm, ⟨120, _⟩ => ⟨S50000x1, .f32⟩
  | .hbm, ⟨121, _⟩ => ⟨S50000, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v31 : Ref sig .tc := ⟨.hbm, 58, rfl⟩
abbrev main_c_6 : Ref sig .tc := ⟨.hbm, 59, rfl⟩
abbrev main_v32 : Ref sig .tc := ⟨.hbm, 60, rfl⟩
abbrev main_v33 : Ref sig .tc := ⟨.hbm, 61, rfl⟩
abbrev main_c_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_9 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v50 : Ref sig .tc := ⟨.hbm, 87, rfl⟩
abbrev main_c_10 : Ref sig .tc := ⟨.hbm, 88, rfl⟩
abbrev main_v51 : Ref sig .tc := ⟨.hbm, 89, rfl⟩
abbrev main_v52 : Ref sig .tc := ⟨.hbm, 90, rfl⟩
abbrev main_c_11 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_12 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_13 : Ref sig .tc := ⟨.hbm, 109, rfl⟩
abbrev main_call2_cst : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.Layer.lean ====
/-
  One SAGE layer as a function of whole matrices over the extended reals, for any number of rows.

  A layer's value at row r and column c is
      lrelu ( (∑ k, agg r k · Wl k c  +  b c)  +  ∑ k, h r k · Wr k c ),
  and the closing projection's value at row r is  ∑ k, h r k · Wo k 0  +  bo.
  Both depend on the row r of their left operands only, so a block of rows of the operands
  gives the same rows of the result: this is what lets a tiled kernel and a whole-array
  reference meet in one normal form.  A product of matrices whose dimension numbers are the
  plain ones (rows × contraction, contraction × columns) is read at an entry as a sum over
  the contraction coordinate.
-/
import Idealize.ShloMosaic.PureOps.Ideal.Laws
import Idealize.ShloMosaic.Lib.ValueIdx

noncomputable section

namespace Cert.Sage

open Idealize.ShloMosaic Idealize.ShloMosaic.ValueIdx
open scoped BigOperators

/-- A matrix of extended reals with `M` rows and `N` columns. -/
abbrev Mat (M N : Nat) : Type := (⟨2, ![M, N]⟩ : Shape).Idx → EReal

/-- The leaky rectifier with slope the f32 nearest 0.01: the value itself where it is at least zero,
    the slope times the value elsewhere. -/
def lrelu (v : EReal) : EReal :=
  Scalar.select (FloatOps.cmpf (F := Ideal) (φ := .f32) .oge v (Scalar.ofBits (F := Ideal) .f32 0x00000000#32)) v
    (FloatOps.mulf (F := Ideal) (φ := .f32) (Scalar.ofBits (F := Ideal) .f32 0x3C23D70A#32) v)

/-- One layer: neighbours' mean times the left weights, plus the bias, plus the node's own features times
    the right weights, through the leaky rectifier. -/
def layerAt {M : Nat} (agg h : Mat M 64) (Wl Wr : Mat 64 64) (b : Fin 64 → EReal) : Mat M 64 := fun j =>
  lrelu ((∑ k : Fin 64, agg (ix2 (j 0) k) * Wl (ix2 k (j 1)) + b (j 1)) + ∑ k : Fin 64, h (ix2 (j 0) k) * Wr (ix2 k (j 1)))

/-- The closing projection onto one column, plus its bias. -/
def projAt {M : Nat} (h : Mat M 64) (Wo : Mat 64 1) (bo : EReal) : Mat M 1 := fun j =>
  (∑ k : Fin 64, h (ix2 (j 0) k) * Wo (ix2 k (j 1))) + bo

/-- A layer on a block of rows is those rows of the layer on the whole matrices: a result row reads only
    that row of the two left operands. -/
theorem layerAt_rows {M M' : Nat} (agg h : Mat M 64) (aggB hB : Mat M' 64) (Wl Wr : Mat 64 64) (b : Fin 64 → EReal)
    (ι : Fin M' → Fin M) (ha : ∀ p k, aggB (ix2 p k) = agg (ix2 (ι p) k)) (hh : ∀ p k, hB (ix2 p k) = h (ix2 (ι p) k))
    (p : Fin M') (q : Fin 64) : layerAt aggB hB Wl Wr b (ix2 p q) = layerAt agg h Wl Wr b (ix2 (ι p) q) := by
  show lrelu ((∑ k : Fin 64, aggB (ix2 p k) * Wl (ix2 k q) + b q) + ∑ k : Fin 64, hB (ix2 p k) * Wr (ix2 k q))
    = lrelu ((∑ k : Fin 64, agg (ix2 (ι p) k) * Wl (ix2 k q) + b q) + ∑ k : Fin 64, h (ix2 (ι p) k) * Wr (ix2 k q))
  simp only [ha, hh]

/-- The projection on a block of rows is those rows of the projection of the whole matrix. -/
theorem projAt_rows {M M' : Nat} (h : Mat M 64) (hB : Mat M' 64) (Wo : Mat 64 1) (bo : EReal)
    (ι : Fin M' → Fin M) (hh : ∀ p k, hB (ix2 p k) = h (ix2 (ι p) k)) (p : Fin M') (q : Fin 1) :
    projAt hB Wo bo (ix2 p q) = projAt h Wo bo (ix2 (ι p) q) := by
  show (∑ k : Fin 64, hB (ix2 p k) * Wo (ix2 k q)) + bo = (∑ k : Fin 64, h (ix2 (ι p) k) * Wo (ix2 k q)) + bo
  simp only [hh]

/-- A plain matrix product's sum over its contraction index, read at an entry, is the sum over the shared
    coordinate of left row entry times right column entry. -/
theorem plain_sum {M K N : Nat} (l : Mat M K) (r : Mat K N) (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a; match a with | ⟨0, _⟩ => rfl | ⟨1, _⟩ => rfl
  have hr : (DotDims.plain M K N).rhsIdx j ((contrEquiv1 (DotDims.plain M K N) K rfl rfl).symm k) = ix2 k (j 1) := by
    funext a; match a with | ⟨0, _⟩ => rfl | ⟨1, _⟩ => rfl
  exact congrArg₂ (· * ·) (congrArg l hl) (congrArg r hr)

end Cert.Sage

end
-- ==== Proof.Spec.lean ====
/-
  The network as one function of its argument arrays over the extended reals.

  From the edge list: the source row and the destination row; each node's in-degree as the scatter-sum of ones over
  the destinations, and its reciprocal after clamping below by one, as a column.  A layer's aggregate is the
  scatter-sum over destinations of the rows gathered at the sources (a negative source counted from the end),
  each row scaled by its node's reciprocal degree.  The network is three layers, each fed the previous layer's
  result both as the gathered features and as the node's own, then the projection onto one column.
-/
import proofs.«427629_j87247965651265_3_alg».proof.KernelIdeal
import proofs.«427629_j87247965651265_3_alg».proof.Proof.Layer

noncomputable section

namespace Cert.Sage

open Idealize.ShloMosaic Idealize.ShloMosaic.ValueIdx Cert.KernelIdeal

variable [Cert.KernelIdeal.Facts]
open Cert.KernelIdeal.Facts₀ Cert.KernelIdeal.Facts

/-- The edge list's first row: the sources. -/
def srcRow (e : IVec S2x800000 32) : IVec S800000 32 :=
  shapeCast S800000 (extractStridedSlice S1x800000 ![0, 0] e slices_S2x800000_S1x800000_0_0) shapeCasts_S1x800000_S800000

/-- The edge list's second row: the destinations. -/
def dstRow (e : IVec S2x800000 32) : IVec S800000 32 :=
  shapeCast S800000 (extractStridedSlice S1x800000 ![1, 0] e slices_S2x800000_S1x800000_1_0) shapeCasts_S1x800000_S800000

/-- One over each node's in-degree, the degree clamped below by one. -/
def invDeg (v3 : IVec S800000 32) : FVec Ideal S50000 .f32 :=
  Host.divf (broadcastInDim S50000 ![] bcast_S_S50000 (constant S_ .f32 0x3F800000#32))
    (maximumf
      (Host.scatterAdd scatter_S50000_S800000x1_S800000_n_0_0_1
        (broadcastInDim S50000 ![] bcast_S_S50000 (constant S_ .f32 0x00000000#32))
        (broadcastInDim S800000x1 ![0] bcast_S800000_S800000x1_0 v3)
        (broadcastInDim S800000 ![] bcast_S_S800000 (constant S_ .f32 0x3F800000#32)))
      (broadcastInDim S50000 ![] bcast_S_S50000 (constant S_ .f32 0x3F800000#32)))

/-- The reciprocal degrees as a column: row r holds node r's. -/
def invCol (v3 : IVec S800000 32) : FVec Ideal S50000x1 .f32 := fun j => invDeg v3 (ix1 (j 0))

/-- A layer's aggregate: rows of `h` gathered at the sources `v1` (a negative source counted from the end),
    summed onto the destinations `v3`, each row scaled by the column `v12`. -/
def aggF (h : FVec Ideal S50000x64 .f32) (v1 v3 : IVec S800000 32) (v12 : FVec Ideal S50000x1 .f32) : FVec Ideal S50000x64 .f32 :=
  mulf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 v3)
      (Host.gather gather_S50000x64_S800000x1_S800000x64_1_0_n_n_0_1_164 h
        (broadcastInDim S800000x1 ![0] bcast_S800000_S800000x1_0
          (select (cmpi .slt v1 (broadcastInDim S800000 ![] bcast_S_S800000 (constantI S_ 32 0#32)))
            (addi v1 (broadcastInDim S800000 ![] bcast_S_S800000 (constantI S_ 32 50000#32))) v1))))
    (broadcastInDim S50000x64 ![0, 1] bcast_S50000x1_S50000x64_0_1 v12)

/-- A bias vector as a function of the column. -/
def biasOf (b : FVec Ideal S64 .f32) : Fin 64 → EReal := fun q => b (ix1 q)

/-- The three layers and the projection, of the argument arrays. -/
def sage (x : FVec Ideal S50000x64 .f32) (e : IVec S2x800000 32)
    (Wl1 : FVec Ideal S64x64 .f32) (b1 : FVec Ideal S64 .f32) (Wr1 : FVec Ideal S64x64 .f32)
    (Wl2 : FVec Ideal S64x64 .f32) (b2 : FVec Ideal S64 .f32) (Wr2 : FVec Ideal S64x64 .f32)
    (Wl3 : FVec Ideal S64x64 .f32) (b3 : FVec Ideal S64 .f32) (Wr3 : FVec Ideal S64x64 .f32)
    (Wo : FVec Ideal S64x1 .f32) (bo : FVec Ideal S1 .f32) : FVec Ideal S50000 .f32 :=
  let v1 := srcRow e
  let v3 := dstRow e
  let v12 := invCol v3
  let h1 : FVec Ideal S50000x64 .f32 := layerAt (aggF x v1 v3 v12) x Wl1 Wr1 (biasOf b1)
  let h2 : FVec Ideal S50000x64 .f32 := layerAt (aggF h1 v1 v3 v12) h1 Wl2 Wr2 (biasOf b2)
  let h3 : FVec Ideal S50000x64 .f32 := layerAt (aggF h2 v1 v3 v12) h2 Wl3 Wr3 (biasOf b3)
  fun i => projAt h3 Wo (bo (ix1 0)) (ix2 (i 0) 0)

end Cert.Sage

end
-- ==== Proof.KHost.lean ====
/-
  What each stretch of host operations of the idealized kernel's @main leaves in the buffers the next region or a
  later stretch reads, from ANY contents `U` at the stretch's entry: the edge list's two rows, the reciprocal
  degrees as a column, a layer's aggregate of the features it is handed, a bias as one row, the result column as a
  vector; and the buffers a stretch does not write keep their contents.
-/
import proofs.«427629_j87247965651265_3_alg».proof.Proof.Gen.KernelIdeal.Launch
import proofs.«427629_j87247965651265_3_alg».proof.Proof.Spec
import Idealize.ShloMosaic.Lib.StableHlo.Run
import Idealize.ShloMosaic.Lib.Pipeline.Value
import Idealize.ShloMosaic.Lib.ValueLayout

noncomputable section

namespace Cert.Sage

open Idealize.ShloMosaic Idealize.ShloMosaic.TcCoe Idealize.ShloMosaic.ValueIdx Idealize.SL.Sem Idealize.ShloMosaic.StableHlo
open Cert.KernelIdeal Cert.KernelIdeal.Gen

variable [Cert.KernelIdeal.Facts]

variable (U : Valuation τ sig (Elt Ideal))

/-! ## Reshapes between a vector and a column, read at an index -/

/-- A vector cast to a column reads, at an index, the vector at the index's row: the column's row-major
    position is its row. -/
theorem shapeCast_a_a1_apply {α : Type} {a : ℕ} (x : (⟨1, ![a]⟩ : Shape).Idx → α)
    (h : (⟨1, ![a]⟩ : Shape).ShapeCasts ⟨2, ![a, 1]⟩) (j : (⟨2, ![a, 1]⟩ : Shape).Idx) :
    shapeCast ⟨2, ![a, 1]⟩ x h j = x (ix1 (j 0)) :=
  shapeCast_apply x h _ _ (by
    have h1 := idx2_lt1 j
    rw [Shape.rowMajor_val_two, Shape.rowMajor_val_one]
    show (j 0).val = (j 0).val * 1 + (j 1).val
    omega)

/-- A column cast to a vector reads, at an index, the column at that row. -/
theorem shapeCast_a1_a_apply {α : Type} {a : ℕ} (x : (⟨2, ![a, 1]⟩ : Shape).Idx → α)
    (h : (⟨2, ![a, 1]⟩ : Shape).ShapeCasts ⟨1, ![a]⟩) (i : (⟨1, ![a]⟩ : Shape).Idx) :
    shapeCast ⟨1, ![a]⟩ x h i = x (ix2 (i 0) (0 : Fin 1)) :=
  shapeCast_apply x h _ _ (by
    rw [Shape.rowMajor_val_two, Shape.rowMajor_val_one]
    show (i 0).val * 1 + 0 = (i 0).val
    omega)

/-! ## Before the first region -/

theorem h0_v1 : after (hostOps0 (F := Ideal)) U (Proc.devRef .tc main_v1) = srcRow (U (Proc.devRef .tc main_arg1)) := by
  after_results_simp
  rfl

theorem h0_v3 : after (hostOps0 (F := Ideal)) U (Proc.devRef .tc main_v3) = dstRow (U (Proc.devRef .tc main_arg1)) := by
  after_results_simp
  rfl

theorem h0_v12 : after (hostOps0 (F := Ideal)) U (Proc.devRef .tc main_v12) = invCol (dstRow (U (Proc.devRef .tc main_arg1))) := by
  after_results_simp
  funext j
  exact shapeCast_a_a1_apply (invDeg (dstRow (U (Proc.devRef .tc main_arg1)))) _ j

theorem h0_v24 : after (hostOps0 (F := Ideal)) U (Proc.devRef .tc main_v24)
    = aggF (U (Proc.devRef .tc main_arg0)) (srcRow (U (Proc.devRef .tc main_arg1))) (dstRow (U (Proc.devRef .tc main_arg1)))
        (invCol (dstRow (U (Proc.devRef .tc main_arg1)))) := by
  after_results_simp
  have e : (shapeCast S50000x1 (invDeg (dstRow (U (Proc.devRef .tc main_arg1)))) Facts₀.shapeCasts_S50000_S50000x1
      : FVec Ideal S50000x1 .f32) = invCol (dstRow (U (Proc.devRef .tc main_arg1))) :=
    funext fun j => shapeCast_a_a1_apply _ _ j
  rw [← e]
  rfl

theorem h0_v25 (q : Fin 64) : (after (hostOps0 (F := Ideal)) U (Proc.devRef .tc main_v25) : S1x64.Idx → EReal) (ix2 0 q)
    = biasOf (U (Proc.devRef .tc main_arg3)) q := by
  after_results_simp
  exact shapeCast_a_1a_apply _ _ 0 q

/-- The buffers later items read that the first stretch does not write. -/
abbrev keep0 : List (Ref sig .tc) :=
  [main_arg0, main_arg2, main_arg4, main_arg5, main_arg6, main_arg7, main_arg8, main_arg9, main_arg10, main_arg11, main_arg12]

theorem h0_keep (b : Ref sig .tc) (hb : b ∈ keep0) :
    after (hostOps0 (F := Ideal)) U (Proc.devRef .tc b) = U (Proc.devRef .tc b) := by
  refine after_of_forall_not_mem _ _ (List.forall_iff_forall_mem.mp ?_)
  simp only [List.mem_cons, List.mem_nil_iff, or_false] at hb
  rcases hb with rfl | rfl | rfl | rfl | rfl | rfl | rfl | rfl | rfl | rfl | rfl
  all_goals
    simp only [hostOps0, List.Forall, nullary_writes, unary_writes, binary_writes, ternary_writes, reshape_writes,
      Finset.mem_singleton]
    repeat' apply And.intro
    all_goals exact devRef_ne_of_ne (by decide)

/-! ## Between the first and the second region -/

theorem h1_v38 : after (hostOps1 (F := Ideal)) U (Proc.devRef .tc main_v38)
    = aggF (U (Proc.devRef .tc main_v26)) (U (Proc.devRef .tc main_v1)) (U (Proc.devRef .tc main_v3)) (U (Proc.devRef .tc main_v12)) := by
  after_results_simp
  rfl

theorem h1_v39 (q : Fin 64) : (after (hostOps1 (F := Ideal)) U (Proc.devRef .tc main_v39) : S1x64.Idx → EReal) (ix2 0 q)
    = biasOf (U (Proc.devRef .tc main_arg6)) q := by
  after_results_simp
  exact shapeCast_a_1a_apply _ _ 0 q

abbrev keep1 : List (Ref sig .tc) :=
  [main_v26, main_v1, main_v3, main_v12, main_arg5, main_arg7, main_arg8, main_arg9, main_arg10, main_arg11, main_arg12]

theorem h1_keep (b : Ref sig .tc) (hb : b ∈ keep1) :
    after (hostOps1 (F := Ideal)) U (Proc.devRef .tc b) = U (Proc.devRef .tc b) := by
  refine after_of_forall_not_mem _ _ (List.forall_iff_forall_mem.mp ?_)
  simp only [List.mem_cons, List.mem_nil_iff, or_false] at hb
  rcases hb with rfl | rfl | rfl | rfl | rfl | rfl | rfl | rfl | rfl | rfl | rfl
  all_goals
    simp only [hostOps1, List.Forall, nullary_writes, unary_writes, binary_writes, ternary_writes, reshape_writes,
      Finset.mem_singleton]
    repeat' apply And.intro
    all_goals exact devRef_ne_of_ne (by decide)

/-! ## Between the second and the third region -/

theorem h2_v52 : after (hostOps2 (F := Ideal)) U (Proc.devRef .tc main_v52)
    = aggF (U (Proc.devRef .tc main_v40)) (U (Proc.devRef .tc main_v1)) (U (Proc.devRef .tc main_v3)) (U (Proc.devRef .tc main_v12)) := by
  after_results_simp
  rfl

theorem h2_v53 (q : Fin 64) : (after (hostOps2 (F := Ideal)) U (Proc.devRef .tc main_v53) : S1x64.Idx → EReal) (ix2 0 q)
    = biasOf (U (Proc.devRef .tc main_arg9)) q := by
  after_results_simp
  exact shapeCast_a_1a_apply _ _ 0 q

theorem h2_v54 : (after (hostOps2 (F := Ideal)) U (Proc.devRef .tc main_v54) : S1x1.Idx → EReal) (ix2 0 0)
    = (U (Proc.devRef .tc main_arg12) : S1.Idx → EReal) (ix1 0) := by
  after_results_simp
  exact shapeCast_a_1a_apply _ _ 0 0

abbrev keep2 : List (Ref sig .tc) := [main_v40, main_arg8, main_arg10, main_arg11]

theorem h2_keep (b : Ref sig .tc) (hb : b ∈ keep2) :
    after (hostOps2 (F := Ideal)) U (Proc.devRef .tc b) = U (Proc.devRef .tc b) := by
  refine after_of_forall_not_mem _ _ (List.forall_iff_forall_mem.mp ?_)
  simp only [List.mem_cons, List.mem_nil_iff, or_false] at hb
  rcases hb with rfl | rfl | rfl | rfl
  all_goals
    simp only [hostOps2, List.Forall, nullary_writes, unary_writes, binary_writes, ternary_writes, reshape_writes,
      Finset.mem_singleton]
    repeat' apply And.intro
    all_goals exact devRef_ne_of_ne (by decide)

/-! ## After the third region -/

theorem h3_v56 : (after (hostOps3 (F := Ideal)) U (Proc.devRef .tc main_v56) : S50000.Idx → EReal)
    = fun i => (U (Proc.devRef .tc main_v55_1) : S50000x1.Idx → EReal) (ix2 (i 0) 0) := by
  after_results_simp
  funext i
  exact shapeCast_a1_a_apply _ _ i

end Cert.Sage

end
-- ==== Proof.Payload.lean ====
/-
  Each kernel body's stored value, as a function of the blocks it loads, is one layer (and, for the last body's
  second store, the projection of that layer) on those blocks: a `tpu.matmul` into a zero accumulator is the
  plain sum over the shared coordinate, the bias row broadcast down the rows, the rectifier entry by entry.
-/
import proofs.«427629_j87247965651265_3_alg».proof.Proof.Gen.KernelIdeal.Skeleton
import proofs.«427629_j87247965651265_3_alg».proof.Proof.Layer
import Idealize.ShloMosaic.Lib.Pipeline.Value
import Idealize.ShloMosaic.Lib.ValueLayout

noncomputable section

namespace Cert.Sage

open Idealize.ShloMosaic Idealize.ShloMosaic.ValueIdx Cert.KernelIdeal Cert.KernelIdeal.Gen

variable [Cert.KernelIdeal.Facts]

/-- The printed dimension record of the 5000×64 by 64×64 product is the plain one: it differs in its proof field only. -/
theorem dot64_eq : dot_S5000x64_S64x64_S5000x64_1_0_0_1_n_n = DotDims.plain 5000 64 64 := rfl

/-- The printed dimension record of the 5000×64 by 64×1 product is the plain one. -/
theorem dot1_eq : dot_S5000x64_S64x1_S5000x1_1_0_0_1_n_n = DotDims.plain 5000 64 1 := rfl

/-- A 5000×64 block times a 64×64 matrix into a zero accumulator, read at an entry: the sum over the shared coordinate. -/
theorem mm64_apply (l : FVec Ideal S5000x64 .f32) (r : FVec Ideal S64x64 .f32) (p : Fin 5000) (q : Fin 64) :
    FloatOps.matmul (F := Ideal) dot_S5000x64_S64x64_S5000x64_1_0_0_1_n_n none l r (constant S5000x64 .f32 0x00000000#32) (ix2 p q)
      = ∑ k : Fin 64, l (ix2 p k) * r (ix2 k q) := by
  rw [dot64_eq]
  exact (Ideal.matmul_constant_zero_apply (DotDims.plain 5000 64 64) none l r (ix2 p q)).trans
    (plain_sum (M := 5000) (K := 64) (N := 64) l r (ix2 p q))

/-- A 5000×64 block times a 64×1 column into a zero accumulator, read at an entry. -/
theorem mm1_apply (l : FVec Ideal S5000x64 .f32) (r : FVec Ideal S64x1 .f32) (p : Fin 5000) (q : Fin 1) :
    FloatOps.matmul (F := Ideal) dot_S5000x64_S64x1_S5000x1_1_0_0_1_n_n none l r (constant S5000x1 .f32 0x00000000#32) (ix2 p q)
      = ∑ k : Fin 64, l (ix2 p k) * r (ix2 k q) := by
  rw [dot1_eq]
  exact (Ideal.matmul_constant_zero_apply (DotDims.plain 5000 64 1) none l r (ix2 p q)).trans
    (plain_sum (M := 5000) (K := 64) (N := 1) l r (ix2 p q))

/-- What a layer's body holds before the rectifier: the first product plus the bias row broadcast down the rows,
    plus the second product. -/
def pre (x0 x1 : FVec Ideal S5000x64 .f32) (W W' : FVec Ideal S64x64 .f32) (b : FVec Ideal S1x64 .f32) : FVec Ideal S5000x64 .f32 :=
  addf (addf (FloatOps.matmul (F := Ideal) dot_S5000x64_S64x64_S5000x64_1_0_0_1_n_n none x0 W (constant S5000x64 .f32 0x00000000#32))
      (broadcastTo S5000x64 b broadcasts_S1x64_S5000x64))
    (FloatOps.matmul (F := Ideal) dot_S5000x64_S64x64_S5000x64_1_0_0_1_n_n none x1 W' (constant S5000x64 .f32 0x00000000#32))

/-- The value before the rectifier, read at an entry. -/
theorem pre_apply (x0 x1 : FVec Ideal S5000x64 .f32) (W W' : FVec Ideal S64x64 .f32) (b : FVec Ideal S1x64 .f32)
    (p : Fin 5000) (q : Fin 64) :
    pre x0 x1 W W' b (ix2 p q)
      = (∑ k : Fin 64, x0 (ix2 p k) * W (ix2 k q) + b (ix2 0 q)) + ∑ k : Fin 64, x1 (ix2 p k) * W' (ix2 k q) := by
  show (FloatOps.matmul (F := Ideal) dot_S5000x64_S64x64_S5000x64_1_0_0_1_n_n none x0 W (constant S5000x64 .f32 0x00000000#32) (ix2 p q)
      + broadcastTo S5000x64 b broadcasts_S1x64_S5000x64 (ix2 p q))
    + FloatOps.matmul (F := Ideal) dot_S5000x64_S64x64_S5000x64_1_0_0_1_n_n none x1 W' (constant S5000x64 .f32 0x00000000#32) (ix2 p q) = _
  rw [mm64_apply, mm64_apply, broadcastTo_1b_ab_apply]

/-- A body's stored value is the rectifier, entry by entry, of the value before it. -/
theorem layer_of_pre (x0 x1 : FVec Ideal S5000x64 .f32) (W W' : FVec Ideal S64x64 .f32) (b : FVec Ideal S1x64 .f32) :
    (fun j => lrelu (pre x0 x1 W W' b j)) = layerAt (M := 5000) x0 x1 W W' (fun q => b (ix2 0 q)) := by
  funext j
  obtain ⟨p, q, rfl⟩ : ∃ (p : Fin 5000) (q : Fin 64), j = ix2 p q := ⟨j 0, j 1, eq_ix2 j⟩
  exact congrArg lrelu (pre_apply x0 x1 W W' b p q)

theorem pay0 (x0 x1 : Vec Ideal S5000x64 .f32) (W W' : Vec Ideal S64x64 .f32) (b : Vec Ideal S1x64 .f32) :
    k0_pay1 (F := Ideal) x0 W b x1 W' = layerAt (M := 5000) x0 x1 W W' (fun q => b (ix2 0 q)) := by
  refine Eq.trans ?_ (layer_of_pre x0 x1 W W' b)
  have h1 : shapeCast S5000x64 x0 shapeCasts_S5000x64_S5000x64 = x0 := shapeCast_self _ _
  have h5 : shapeCast S1x64 b shapeCasts_S1x64_S1x64 = b := shapeCast_self _ _
  show (fun j => lrelu (pre (shapeCast S5000x64 x0 shapeCasts_S5000x64_S5000x64) x1 W W' (shapeCast S1x64 b shapeCasts_S1x64_S1x64) j)) = _
  rw [h1, h5]

theorem pay1 (x0 x1 : Vec Ideal S5000x64 .f32) (W W' : Vec Ideal S64x64 .f32) (b : Vec Ideal S1x64 .f32) :
    k1_pay1 (F := Ideal) x0 W b x1 W' = layerAt (M := 5000) x0 x1 W W' (fun q => b (ix2 0 q)) := by
  refine Eq.trans ?_ (layer_of_pre x0 x1 W W' b)
  have h1 : shapeCast S5000x64 x0 shapeCasts_S5000x64_S5000x64 = x0 := shapeCast_self _ _
  have h9 : shapeCast S5000x64 x1 shapeCasts_S5000x64_S5000x64 = x1 := shapeCast_self _ _
  have h5 : shapeCast S1x64 b shapeCasts_S1x64_S1x64 = b := shapeCast_self _ _
  show (fun j => lrelu (pre (shapeCast S5000x64 x0 shapeCasts_S5000x64_S5000x64) (shapeCast S5000x64 x1 shapeCasts_S5000x64_S5000x64)
    W W' (shapeCast S1x64 b shapeCasts_S1x64_S1x64) j)) = _
  rw [h1, h9, h5]

theorem pay2h (x0 x1 : Vec Ideal S5000x64 .f32) (W W' : Vec Ideal S64x64 .f32) (b : Vec Ideal S1x64 .f32) :
    k2_pay1 (F := Ideal) x0 W b x1 W' = layerAt (M := 5000) x0 x1 W W' (fun q => b (ix2 0 q)) := by
  refine Eq.trans ?_ (layer_of_pre x0 x1 W W' b)
  have h1 : shapeCast S5000x64 x0 shapeCasts_S5000x64_S5000x64 = x0 := shapeCast_self _ _
  have h9 : shapeCast S5000x64 x1 shapeCasts_S5000x64_S5000x64 = x1 := shapeCast_self _ _
  have h5 : shapeCast S1x64 b shapeCasts_S1x64_S1x64 = b := shapeCast_self _ _
  show (fun j => lrelu (pre (shapeCast S5000x64 x0 shapeCasts_S5000x64_S5000x64) (shapeCast S5000x64 x1 shapeCasts_S5000x64_S5000x64)
    W W' (shapeCast S1x64 b shapeCasts_S1x64_S1x64) j)) = _
  rw [h1, h9, h5]

theorem pay2o (x0 x1 : Vec Ideal S5000x64 .f32) (W W' : Vec Ideal S64x64 .f32) (b : Vec Ideal S1x64 .f32)
    (Wo : Vec Ideal S64x1 .f32) (bo : Vec Ideal S1x1 .f32) :
    k2_pay2 (F := Ideal) x0 W b x1 W' Wo bo
      = projAt (M := 5000) (layerAt (M := 5000) x0 x1 W W' (fun q => b (ix2 0 q))) Wo (bo (ix2 0 0)) := by
  funext j
  obtain ⟨p, q, rfl⟩ : ∃ (p : Fin 5000) (q : Fin 1), j = ix2 p q := ⟨j 0, j 1, eq_ix2 j⟩
  have hq : q = 0 := Subsingleton.elim q 0
  subst hq
  show FloatOps.matmul (F := Ideal) dot_S5000x64_S64x1_S5000x1_1_0_0_1_n_n none (k2_pay1 (F := Ideal) x0 W b x1 W') Wo
        (constant S5000x1 .f32 0x00000000#32) (ix2 p 0)
      + broadcastTo S5000x1 (shapeCast S1x1 bo shapeCasts_S1x1_S1x1) broadcasts_S1x1_S5000x1 (ix2 p 0)
    = (∑ k : Fin 64, layerAt (M := 5000) x0 x1 W W' (fun q => b (ix2 0 q)) (ix2 p k) * Wo (ix2 k 0)) + bo (ix2 0 0)
  rw [pay2h, mm1_apply, shapeCast_self, broadcastTo_1b_ab_apply]

end Cert.Sage

end
-- ==== Proof.Region0.lean ====
/-
  The first layer's region: its ten points each write back a block of 5000 rows, the blocks tile the 50000 rows,
  and block t is rows 5000·t … 5000·t + 4999 of one layer on the whole arrays the region finds.
-/
import proofs.«427629_j87247965651265_3_alg».proof.Proof.Gen.KernelIdeal.Frame
import proofs.«427629_j87247965651265_3_alg».proof.Proof.Payload
import Idealize.ShloMosaic.Lib.Pipeline.Value

set_option maxRecDepth 16384

noncomputable section

namespace Cert.Sage

open Idealize.ShloMosaic Idealize.ShloMosaic.TcCoe Idealize.ShloMosaic.ValueIdx Idealize.SL.Sem Cert.KernelIdeal Cert.KernelIdeal.Gen
open Idealize.ShloMosaic.Pipeline (Dat Cfg Window)

variable [Cert.KernelIdeal.Facts]

variable (V : (c : Dev nD) → (b : Ref sig .tc) → Buf (Elt Ideal) ((c : Thread nD τ).loc b))

/-- The zero offsets of a whole-buffer access. -/
theorem hz0 : (![0, 0] : Fin 2 → Nat) = fun _ => 0 := funext fun a => by
  match a with
  | ⟨0, _⟩ => rfl
  | ⟨1, _⟩ => rfl

/-- The printed index maps, decided once over the ten points: the output's block and the two row-tiled inputs'
    blocks sit at the point's own number down the rows and at 0 across the columns; the weights' and the bias's
    block is always block (0, 0), the whole array. -/
theorem idx_facts0 : ∀ t : Fin grid0.N,
    cc0_transform_5 (grid0.coords t) (0 : Fin 2) = t.val ∧ cc0_transform_5 (grid0.coords t) (1 : Fin 2) = 0
    ∧ cc0_transform_0 (grid0.coords t) (0 : Fin 2) = t.val ∧ cc0_transform_0 (grid0.coords t) (1 : Fin 2) = 0
    ∧ cc0_transform_1 (grid0.coords t) (0 : Fin 2) = t.val ∧ cc0_transform_1 (grid0.coords t) (1 : Fin 2) = 0
    ∧ cc0_transform_2 (grid0.coords t) (0 : Fin 2) = 0 ∧ cc0_transform_2 (grid0.coords t) (1 : Fin 2) = 0
    ∧ cc0_transform_3 (grid0.coords t) (0 : Fin 2) = 0 ∧ cc0_transform_3 (grid0.coords t) (1 : Fin 2) = 0
    ∧ cc0_transform_4 (grid0.coords t) (0 : Fin 2) = 0 ∧ cc0_transform_4 (grid0.coords t) (1 : Fin 2) = 0 := by
  decide +kernel

/-- One layer on blocks that are rows `5000·n … 5000·n + 4999` of the row operands, with the whole weights and
    bias, read at an entry, is the layer on the whole operands read at the same entry of those rows. -/
theorem layer_block0 (x0 x1 : Vec Ideal S5000x64 .f32) (W W' : Vec Ideal S64x64 .f32) (b : Vec Ideal S1x64 .f32)
    (A0 A1 : Mat 50000 64) (B2 B4 : Mat 64 64) (B3 : S1x64.Idx → EReal) (n : Nat)
    (h0 : ∀ (x : S5000x64.Idx) (k : S50000x64.Idx), (k 0).val = 5000 * n + (x 0).val → (k 1).val = (x 1).val → x0 x = A0 k)
    (h1 : ∀ (x : S5000x64.Idx) (k : S50000x64.Idx), (k 0).val = 5000 * n + (x 0).val → (k 1).val = (x 1).val → x1 x = A1 k)
    (h2 : ∀ x : S64x64.Idx, W x = B2 x) (h3 : ∀ x : S1x64.Idx, b x = B3 x) (h4 : ∀ x : S64x64.Idx, W' x = B4 x)
    (y : S5000x64.Idx) (k : S50000x64.Idx) (hk0 : (k 0).val = 5000 * n + (y 0).val) (hk1 : (k 1).val = (y 1).val) :
    layerAt (M := 5000) x0 x1 W W' (fun q => b (ix2 0 q)) y
      = layerAt (M := 50000) A0 A1 B2 B4 (fun q => B3 (ix2 0 q)) k := by
  obtain rfl : W = B2 := funext h2
  obtain rfl : b = B3 := funext h3
  obtain rfl : W' = B4 := funext h4
  have hn : ∀ p : Fin 5000, 5000 * n + p.val < 50000 := fun p => by
    have hk : (k 0).val < 50000 := (k 0).isLt
    have hp : p.val < 5000 := p.isLt
    omega
  have hk : k = ix2 (⟨5000 * n + (y 0).val, hn (y 0)⟩ : Fin 50000) (y 1) := by
    rw [eq_ix2 k]
    exact congrArg₂ ix2 (Fin.ext hk0) (Fin.ext hk1)
  rw [hk, eq_ix2 y]
  exact layerAt_rows A0 A1 x0 x1 W W' (fun q => b (ix2 0 q)) (fun p => ⟨5000 * n + p.val, hn p⟩)
    (fun p k' => h0 _ _ rfl rfl) (fun p k' => h1 _ _ rfl rfl) (y 0) (y 1)

/-- The neighbours' block at point `t` is rows `5000·t … 5000·t + 4999` of the neighbours' array. -/
theorem iblk0_0_apply (c : Dev nD) (t : Fin cfg0.N) (x : S5000x64.Idx) (k : S50000x64.Idx)
    (hk0 : (k 0).val = 5000 * t.val + (x 0).val) (hk1 : (k 1).val = (x 1).val) :
    (iblk0 V c 0 t : Vec Ideal S5000x64 .f32) x = (V c main_v24 : S50000x64.Idx → EReal) k := by
  obtain ⟨-, -, e0, e1, -⟩ := idx_facts0 t
  unfold iblk0
  rw [View.read_apply]
  show V c main_v24 _ = V c main_v24 _
  congr 1
  funext a
  apply Fin.ext
  match a with
  | ⟨0, _⟩ => show win0_0.index t (0 : Fin 2) * 5000 + 1 * (x 0).val = (k 0).val; rw [show win0_0.index t (0 : Fin 2) = t.val from e0, hk0]; omega
  | ⟨1, _⟩ => show win0_0.index t (1 : Fin 2) * 64 + 1 * (x 1).val = (k 1).val; rw [show win0_0.index t (1 : Fin 2) = 0 from e1, hk1]; omega

/-- The node features' block at point `t` is rows `5000·t … 5000·t + 4999` of the features' array. -/
theorem iblk0_1_apply (c : Dev nD) (t : Fin cfg0.N) (x : S5000x64.Idx) (k : S50000x64.Idx)
    (hk0 : (k 0).val = 5000 * t.val + (x 0).val) (hk1 : (k 1).val = (x 1).val) :
    (iblk0 V c 1 t : Vec Ideal S5000x64 .f32) x = (V c main_arg0 : S50000x64.Idx → EReal) k := by
  obtain ⟨-, -, -, -, e0, e1, -⟩ := idx_facts0 t
  unfold iblk0
  rw [View.read_apply]
  show V c main_arg0 _ = V c main_arg0 _
  congr 1
  funext a
  apply Fin.ext
  match a with
  | ⟨0, _⟩ => show win0_1.index t (0 : Fin 2) * 5000 + 1 * (x 0).val = (k 0).val; rw [show win0_1.index t (0 : Fin 2) = t.val from e0, hk0]; omega
  | ⟨1, _⟩ => show win0_1.index t (1 : Fin 2) * 64 + 1 * (x 1).val = (k 1).val; rw [show win0_1.index t (1 : Fin 2) = 0 from e1, hk1]; omega

/-- The left weights' block at every point is the whole array. -/
theorem iblk0_2_apply (c : Dev nD) (t : Fin cfg0.N) (x : S64x64.Idx) :
    (iblk0 V c 2 t : Vec Ideal S64x64 .f32) x = (V c main_arg2 : S64x64.Idx → EReal) x := by
  obtain ⟨-, -, -, -, -, -, e0, e1, -⟩ := idx_facts0 t
  unfold iblk0
  rw [View.read_apply]
  show V c main_arg2 _ = V c main_arg2 _
  congr 1
  funext a
  apply Fin.ext
  match a with
  | ⟨0, _⟩ => show win0_2.index t (0 : Fin 2) * 64 + 1 * (x 0).val = (x 0).val; rw [show win0_2.index t (0 : Fin 2) = 0 from e0]; omega
  | ⟨1, _⟩ => show win0_2.index t (1 : Fin 2) * 64 + 1 * (x 1).val = (x 1).val; rw [show win0_2.index t (1 : Fin 2) = 0 from e1]; omega

/-- The bias row's block at every point is the whole row. -/
theorem iblk0_3_apply (c : Dev nD) (t : Fin cfg0.N) (x : S1x64.Idx) :
    (iblk0 V c 3 t : Vec Ideal S1x64 .f32) x = (V c main_v25 : S1x64.Idx → EReal) x := by
  obtain ⟨-, -, -, -, -, -, -, -, e0, e1, -⟩ := idx_facts0 t
  unfold iblk0
  rw [View.read_apply]
  show V c main_v25 _ = V c main_v25 _
  congr 1
  funext a
  apply Fin.ext
  match a with
  | ⟨0, _⟩ => show win0_3.index t (0 : Fin 2) * 1 + 1 * (x 0).val = (x 0).val; rw [show win0_3.index t (0 : Fin 2) = 0 from e0]; omega
  | ⟨1, _⟩ => show win0_3.index t (1 : Fin 2) * 64 + 1 * (x 1).val = (x 1).val; rw [show win0_3.index t (1 : Fin 2) = 0 from e1]; omega

/-- The right weights' block at every point is the whole array. -/
theorem iblk0_4_apply (c : Dev nD) (t : Fin cfg0.N) (x : S64x64.Idx) :
    (iblk0 V c 4 t : Vec Ideal S64x64 .f32) x = (V c main_arg4 : S64x64.Idx → EReal) x := by
  obtain ⟨-, -, -, -, -, -, -, -, -, -, e0, e1⟩ := idx_facts0 t
  unfold iblk0
  rw [View.read_apply]
  show V c main_arg4 _ = V c main_arg4 _
  congr 1
  funext a
  apply Fin.ext
  match a with
  | ⟨0, _⟩ => show win0_4.index t (0 : Fin 2) * 64 + 1 * (x 0).val = (x 0).val; rw [show win0_4.index t (0 : Fin 2) = 0 from e0]; omega
  | ⟨1, _⟩ => show win0_4.index t (1 : Fin 2) * 64 + 1 * (x 1).val = (x 1).val; rw [show win0_4.index t (1 : Fin 2) = 0 from e1]; omega

/-- What the region's output array ends holding: one layer on the whole arrays the region finds. -/
abbrev G0 (c : Dev nD) : Mat 50000 64 :=
  layerAt (M := 50000) (V c main_v24) (V c main_arg0) (V c main_arg2) (V c main_arg4)
    (fun q => (V c main_v25 : S1x64.Idx → EReal) (ix2 0 q))

/-- What point `t` writes back is block `t` of the layer on the whole arrays: rows `5000·t … 5000·t + 4999`. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5]
  unfold out0_5
  rw [View.canon_unit_zero hz0]
  simp only [View.ld_unit_zero (S := S5000x64) hz0, View.ld_unit_zero (S := S64x64) hz0, View.ld_unit_zero (S := S1x64) hz0]
  rw [pay0]
  obtain ⟨e0, e1, -⟩ := idx_facts0 t
  funext y
  refine layer_block0 (iblk0 V c 0 t) (iblk0 V c 1 t) (iblk0 V c 2 t) (iblk0 V c 4 t) (iblk0 V c 3 t)
    (V c main_v24) (V c main_arg0) (V c main_arg2) (V c main_arg4) (V c main_v25) t.val
    (iblk0_0_apply V c t) (iblk0_1_apply V c t) (iblk0_2_apply V c t) (iblk0_3_apply V c t) (iblk0_4_apply V c t)
    ((cfg0.win 5).xinj (grid0.coords t) y) (((cfg0.win 5).blk t).view.emb y) ?_ ?_
  · show win0_5.index t (0 : Fin 2) * 5000 + 1 * (y (0 : Fin 2)).val = 5000 * t.val + (y (0 : Fin 2)).val
    rw [show win0_5.index t (0 : Fin 2) = t.val from e0]; omega
  · show win0_5.index t (1 : Fin 2) * 64 + 1 * (y (1 : Fin 2)).val = (y (1 : Fin 2)).val
    rw [show win0_5.index t (1 : Fin 2) = 0 from e1]; omega

/-- An index of the output array is in point `t`'s block iff each coordinate is in the block's range on its axis. -/
theorem mem_blk0 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v26).slice (win0_5.rect t)).set ↔ _
  rw [View.set_slice_whole, Rect.mem_set_unit]
  exact Iff.rfl

/-- The ten blocks tile the rows: row `r` is in the block of point `r / 5000`, and every point writes back. -/
theorem covered0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have hN : (i 0).val / 5000 < grid0.N := by rw [N_0]; omega
  obtain ⟨e0, e1, -⟩ := idx_facts0 ⟨(i 0).val / 5000, hN⟩
  refine ⟨⟨(i 0).val / 5000, hN⟩, flush0_5 _, ?_⟩
  rw [mem_blk0]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [show win0_5.index ⟨(i 0).val / 5000, hN⟩ (0 : Fin 2) = (i 0).val / 5000 from e0]; omega
  | ⟨1, _⟩ =>
    show win0_5.index ⟨(i 0).val / 5000, hN⟩ (1 : Fin 2) * 64 ≤ (i 1).val ∧ (i 1).val < win0_5.index ⟨(i 0).val / 5000, hN⟩ (1 : Fin 2) * 64 + 64
    rw [show win0_5.index ⟨(i 0).val / 5000, hN⟩ (1 : Fin 2) = 0 from e1]; omega

theorem region0_value (c : Dev nD) :
    (dat0 (F := Ideal) V c).arrAt 5 cfg0.N
      = layerAt (M := 50000) (V c main_v24) (V c main_arg0) (V c main_arg2) (V c main_arg4)
          (fun q => (V c main_v25 : S1x64.Idx → EReal) (ix2 0 q)) :=
  (dat0 (F := Ideal) V c).arrAt_eq_of_cover 5 (G0 V c) (fun t _ => flushed0_eq V c t) covered0

end Cert.Sage

end
-- ==== Proof.Region1.lean ====
/-
  The second layer's region: its ten points each write back a block of 5000 rows, the blocks tile the 50000 rows,
  and block t is rows 5000·t … 5000·t + 4999 of one layer on the whole arrays the region finds.
-/
import proofs.«427629_j87247965651265_3_alg».proof.Proof.Gen.KernelIdeal.Frame
import proofs.«427629_j87247965651265_3_alg».proof.Proof.Payload
import Idealize.ShloMosaic.Lib.Pipeline.Value

set_option maxRecDepth 16384

noncomputable section

namespace Cert.Sage

open Idealize.ShloMosaic Idealize.ShloMosaic.TcCoe Idealize.ShloMosaic.ValueIdx Idealize.SL.Sem Cert.KernelIdeal Cert.KernelIdeal.Gen
open Idealize.ShloMosaic.Pipeline (Dat Cfg Window)

variable [Cert.KernelIdeal.Facts]

variable (V : (c : Dev nD) → (b : Ref sig .tc) → Buf (Elt Ideal) ((c : Thread nD τ).loc b))

/-- The zero offsets of a whole-buffer access. -/
theorem hz1 : (![0, 0] : Fin 2 → Nat) = fun _ => 0 := funext fun a => by
  match a with
  | ⟨0, _⟩ => rfl
  | ⟨1, _⟩ => rfl

/-- The printed index maps, decided once over the ten points: the output's block and the two row-tiled inputs'
    blocks sit at the point's own number down the rows and at 0 across the columns; the weights' and the bias's
    block is always block (0, 0), the whole array. -/
theorem idx_facts1 : ∀ t : Fin grid1.N,
    cc1_transform_5 (grid1.coords t) (0 : Fin 2) = t.val ∧ cc1_transform_5 (grid1.coords t) (1 : Fin 2) = 0
    ∧ cc1_transform_0 (grid1.coords t) (0 : Fin 2) = t.val ∧ cc1_transform_0 (grid1.coords t) (1 : Fin 2) = 0
    ∧ cc1_transform_1 (grid1.coords t) (0 : Fin 2) = t.val ∧ cc1_transform_1 (grid1.coords t) (1 : Fin 2) = 0
    ∧ cc1_transform_2 (grid1.coords t) (0 : Fin 2) = 0 ∧ cc1_transform_2 (grid1.coords t) (1 : Fin 2) = 0
    ∧ cc1_transform_3 (grid1.coords t) (0 : Fin 2) = 0 ∧ cc1_transform_3 (grid1.coords t) (1 : Fin 2) = 0
    ∧ cc1_transform_4 (grid1.coords t) (0 : Fin 2) = 0 ∧ cc1_transform_4 (grid1.coords t) (1 : Fin 2) = 0 := by
  decide +kernel

/-- One layer on blocks that are rows `5000·n … 5000·n + 4999` of the row operands, with the whole weights and
    bias, read at an entry, is the layer on the whole operands read at the same entry of those rows. -/
theorem layer_block1 (x0 x1 : Vec Ideal S5000x64 .f32) (W W' : Vec Ideal S64x64 .f32) (b : Vec Ideal S1x64 .f32)
    (A0 A1 : Mat 50000 64) (B2 B4 : Mat 64 64) (B3 : S1x64.Idx → EReal) (n : Nat)
    (h0 : ∀ (x : S5000x64.Idx) (k : S50000x64.Idx), (k 0).val = 5000 * n + (x 0).val → (k 1).val = (x 1).val → x0 x = A0 k)
    (h1 : ∀ (x : S5000x64.Idx) (k : S50000x64.Idx), (k 0).val = 5000 * n + (x 0).val → (k 1).val = (x 1).val → x1 x = A1 k)
    (h2 : ∀ x : S64x64.Idx, W x = B2 x) (h3 : ∀ x : S1x64.Idx, b x = B3 x) (h4 : ∀ x : S64x64.Idx, W' x = B4 x)
    (y : S5000x64.Idx) (k : S50000x64.Idx) (hk0 : (k 0).val = 5000 * n + (y 0).val) (hk1 : (k 1).val = (y 1).val) :
    layerAt (M := 5000) x0 x1 W W' (fun q => b (ix2 0 q)) y
      = layerAt (M := 50000) A0 A1 B2 B4 (fun q => B3 (ix2 0 q)) k := by
  obtain rfl : W = B2 := funext h2
  obtain rfl : b = B3 := funext h3
  obtain rfl : W' = B4 := funext h4
  have hn : ∀ p : Fin 5000, 5000 * n + p.val < 50000 := fun p => by
    have hk : (k 0).val < 50000 := (k 0).isLt
    have hp : p.val < 5000 := p.isLt
    omega
  have hk : k = ix2 (⟨5000 * n + (y 0).val, hn (y 0)⟩ : Fin 50000) (y 1) := by
    rw [eq_ix2 k]
    exact congrArg₂ ix2 (Fin.ext hk0) (Fin.ext hk1)
  rw [hk, eq_ix2 y]
  exact layerAt_rows A0 A1 x0 x1 W W' (fun q => b (ix2 0 q)) (fun p => ⟨5000 * n + p.val, hn p⟩)
    (fun p k' => h0 _ _ rfl rfl) (fun p k' => h1 _ _ rfl rfl) (y 0) (y 1)

/-- The neighbours' block at point `t` is rows `5000·t … 5000·t + 4999` of the neighbours' array. -/
theorem iblk1_0_apply (c : Dev nD) (t : Fin cfg1.N) (x : S5000x64.Idx) (k : S50000x64.Idx)
    (hk0 : (k 0).val = 5000 * t.val + (x 0).val) (hk1 : (k 1).val = (x 1).val) :
    (iblk1 V c 0 t : Vec Ideal S5000x64 .f32) x = (V c main_v38 : S50000x64.Idx → EReal) k := by
  obtain ⟨-, -, e0, e1, -⟩ := idx_facts1 t
  unfold iblk1
  rw [View.read_apply]
  show V c main_v38 _ = V c main_v38 _
  congr 1
  funext a
  apply Fin.ext
  match a with
  | ⟨0, _⟩ => show win1_0.index t (0 : Fin 2) * 5000 + 1 * (x 0).val = (k 0).val; rw [show win1_0.index t (0 : Fin 2) = t.val from e0, hk0]; omega
  | ⟨1, _⟩ => show win1_0.index t (1 : Fin 2) * 64 + 1 * (x 1).val = (k 1).val; rw [show win1_0.index t (1 : Fin 2) = 0 from e1, hk1]; omega

/-- The node features' block at point `t` is rows `5000·t … 5000·t + 4999` of the features' array. -/
theorem iblk1_1_apply (c : Dev nD) (t : Fin cfg1.N) (x : S5000x64.Idx) (k : S50000x64.Idx)
    (hk0 : (k 0).val = 5000 * t.val + (x 0).val) (hk1 : (k 1).val = (x 1).val) :
    (iblk1 V c 1 t : Vec Ideal S5000x64 .f32) x = (V c main_v26 : S50000x64.Idx → EReal) k := by
  obtain ⟨-, -, -, -, e0, e1, -⟩ := idx_facts1 t
  unfold iblk1
  rw [View.read_apply]
  show V c main_v26 _ = V c main_v26 _
  congr 1
  funext a
  apply Fin.ext
  match a with
  | ⟨0, _⟩ => show win1_1.index t (0 : Fin 2) * 5000 + 1 * (x 0).val = (k 0).val; rw [show win1_1.index t (0 : Fin 2) = t.val from e0, hk0]; omega
  | ⟨1, _⟩ => show win1_1.index t (1 : Fin 2) * 64 + 1 * (x 1).val = (k 1).val; rw [show win1_1.index t (1 : Fin 2) = 0 from e1, hk1]; omega

/-- The left weights' block at every point is the whole array. -/
theorem iblk1_2_apply (c : Dev nD) (t : Fin cfg1.N) (x : S64x64.Idx) :
    (iblk1 V c 2 t : Vec Ideal S64x64 .f32) x = (V c main_arg5 : S64x64.Idx → EReal) x := by
  obtain ⟨-, -, -, -, -, -, e0, e1, -⟩ := idx_facts1 t
  unfold iblk1
  rw [View.read_apply]
  show V c main_arg5 _ = V c main_arg5 _
  congr 1
  funext a
  apply Fin.ext
  match a with
  | ⟨0, _⟩ => show win1_2.index t (0 : Fin 2) * 64 + 1 * (x 0).val = (x 0).val; rw [show win1_2.index t (0 : Fin 2) = 0 from e0]; omega
  | ⟨1, _⟩ => show win1_2.index t (1 : Fin 2) * 64 + 1 * (x 1).val = (x 1).val; rw [show win1_2.index t (1 : Fin 2) = 0 from e1]; omega

/-- The bias row's block at every point is the whole row. -/
theorem iblk1_3_apply (c : Dev nD) (t : Fin cfg1.N) (x : S1x64.Idx) :
    (iblk1 V c 3 t : Vec Ideal S1x64 .f32) x = (V c main_v39 : S1x64.Idx → EReal) x := by
  obtain ⟨-, -, -, -, -, -, -, -, e0, e1, -⟩ := idx_facts1 t
  unfold iblk1
  rw [View.read_apply]
  show V c main_v39 _ = V c main_v39 _
  congr 1
  funext a
  apply Fin.ext
  match a with
  | ⟨0, _⟩ => show win1_3.index t (0 : Fin 2) * 1 + 1 * (x 0).val = (x 0).val; rw [show win1_3.index t (0 : Fin 2) = 0 from e0]; omega
  | ⟨1, _⟩ => show win1_3.index t (1 : Fin 2) * 64 + 1 * (x 1).val = (x 1).val; rw [show win1_3.index t (1 : Fin 2) = 0 from e1]; omega

/-- The right weights' block at every point is the whole array. -/
theorem iblk1_4_apply (c : Dev nD) (t : Fin cfg1.N) (x : S64x64.Idx) :
    (iblk1 V c 4 t : Vec Ideal S64x64 .f32) x = (V c main_arg7 : S64x64.Idx → EReal) x := by
  obtain ⟨-, -, -, -, -, -, -, -, -, -, e0, e1⟩ := idx_facts1 t
  unfold iblk1
  rw [View.read_apply]
  show V c main_arg7 _ = V c main_arg7 _
  congr 1
  funext a
  apply Fin.ext
  match a with
  | ⟨0, _⟩ => show win1_4.index t (0 : Fin 2) * 64 + 1 * (x 0).val = (x 0).val; rw [show win1_4.index t (0 : Fin 2) = 0 from e0]; omega
  | ⟨1, _⟩ => show win1_4.index t (1 : Fin 2) * 64 + 1 * (x 1).val = (x 1).val; rw [show win1_4.index t (1 : Fin 2) = 0 from e1]; omega

/-- What the region's output array ends holding: one layer on the whole arrays the region finds. -/
abbrev G1 (c : Dev nD) : Mat 50000 64 :=
  layerAt (M := 50000) (V c main_v38) (V c main_v26) (V c main_arg5) (V c main_arg7)
    (fun q => (V c main_v39 : S1x64.Idx → EReal) (ix2 0 q))

/-- What point `t` writes back is block `t` of the layer on the whole arrays: rows `5000·t … 5000·t + 4999`. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero hz1]
  simp only [View.ld_unit_zero (S := S5000x64) hz1, View.ld_unit_zero (S := S64x64) hz1, View.ld_unit_zero (S := S1x64) hz1]
  rw [pay1]
  obtain ⟨e0, e1, -⟩ := idx_facts1 t
  funext y
  refine layer_block1 (iblk1 V c 0 t) (iblk1 V c 1 t) (iblk1 V c 2 t) (iblk1 V c 4 t) (iblk1 V c 3 t)
    (V c main_v38) (V c main_v26) (V c main_arg5) (V c main_arg7) (V c main_v39) t.val
    (iblk1_0_apply V c t) (iblk1_1_apply V c t) (iblk1_2_apply V c t) (iblk1_3_apply V c t) (iblk1_4_apply V c t)
    ((cfg1.win 5).xinj (grid1.coords t) y) (((cfg1.win 5).blk t).view.emb y) ?_ ?_
  · show win1_5.index t (0 : Fin 2) * 5000 + 1 * (y (0 : Fin 2)).val = 5000 * t.val + (y (0 : Fin 2)).val
    rw [show win1_5.index t (0 : Fin 2) = t.val from e0]; omega
  · show win1_5.index t (1 : Fin 2) * 64 + 1 * (y (1 : Fin 2)).val = (y (1 : Fin 2)).val
    rw [show win1_5.index t (1 : Fin 2) = 0 from e1]; omega

/-- An index of the output array is in point `t`'s block iff each coordinate is in the block's range on its axis. -/
theorem mem_blk1 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v40).slice (win1_5.rect t)).set ↔ _
  rw [View.set_slice_whole, Rect.mem_set_unit]
  exact Iff.rfl

/-- The ten blocks tile the rows: row `r` is in the block of point `r / 5000`, and every point writes back. -/
theorem covered1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : (i 0).val / 5000 < grid1.N := by rw [N_1]; omega
  obtain ⟨e0, e1, -⟩ := idx_facts1 ⟨(i 0).val / 5000, hN⟩
  refine ⟨⟨(i 0).val / 5000, hN⟩, flush1_5 _, ?_⟩
  rw [mem_blk1]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [show win1_5.index ⟨(i 0).val / 5000, hN⟩ (0 : Fin 2) = (i 0).val / 5000 from e0]; omega
  | ⟨1, _⟩ =>
    show win1_5.index ⟨(i 0).val / 5000, hN⟩ (1 : Fin 2) * 64 ≤ (i 1).val ∧ (i 1).val < win1_5.index ⟨(i 0).val / 5000, hN⟩ (1 : Fin 2) * 64 + 64
    rw [show win1_5.index ⟨(i 0).val / 5000, hN⟩ (1 : Fin 2) = 0 from e1]; omega

theorem region1_value (c : Dev nD) :
    (dat1 (F := Ideal) V c).arrAt 5 cfg1.N
      = layerAt (M := 50000) (V c main_v38) (V c main_v26) (V c main_arg5) (V c main_arg7)
          (fun q => (V c main_v39 : S1x64.Idx → EReal) (ix2 0 q)) :=
  (dat1 (F := Ideal) V c).arrAt_eq_of_cover 5 (G1 V c) (fun t _ => flushed1_eq V c t) covered1

end Cert.Sage

end
-- ==== Proof.Region2.lean ====
/-
  The last region: its second output's ten blocks of 5000 rows tile the 50000 rows of the result column, and
  block t is rows 5000·t … 5000·t + 4999 of the projection of the third layer on the whole arrays the region finds.
-/
import proofs.«427629_j87247965651265_3_alg».proof.Proof.Gen.KernelIdeal.Frame
import proofs.«427629_j87247965651265_3_alg».proof.Proof.Payload
import Idealize.ShloMosaic.Lib.Pipeline.Value

set_option maxRecDepth 16384

noncomputable section

namespace Cert.Sage

open Idealize.ShloMosaic Idealize.ShloMosaic.TcCoe Idealize.ShloMosaic.ValueIdx Idealize.SL.Sem Cert.KernelIdeal Cert.KernelIdeal.Gen
open Idealize.ShloMosaic.Pipeline (Dat Cfg Window)

/-- The zero offsets of a whole staging buffer's rectangle, as the constant function. -/
theorem hz2 : (![0, 0] : Fin 2 → Nat) = fun _ => 0 := funext fun a => by fin_cases a <;> rfl

/-- The last region's grid has ten points. -/
theorem N2 : cfg2.N = 10 := (by decide : grid2.N = 10)

/-- The index maps at each of the ten points: the result column's block index at point `t` is `t` on the
    rows and 0 on the one column; the two row-tiled operands move with it; each weight and bias window sits at block (0, 0). -/
theorem idx_facts2 : ∀ t : Fin cfg2.N,
    win2_8.index t (0 : Fin 2) = t.val ∧ win2_8.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

variable [Cert.KernelIdeal.Facts]

variable (V : (c : Dev nD) → (b : Ref sig .tc) → Buf (Elt Ideal) ((c : Thread nD τ).loc b))

/-- Row `p` of block `t` is row `5000·t + p` of the array. -/
def rowOf (t : Fin cfg2.N) (p : Fin 5000) : Fin 50000 :=
  ⟨5000 * t.val + p.val, by have ht : t.val < 10 := lt_of_lt_of_eq t.isLt N2; have hp := p.isLt; omega⟩

/-- The projection of a layer on a block of rows, as the body stores it, is those rows of the projection of the layer
    on the whole arrays: both read a result row from that row of the two left operands only. -/
theorem block_value (A H : Vec Ideal S50000x64 .f32) (x0 x1 : Vec Ideal S5000x64 .f32) (Wl Wr : Vec Ideal S64x64 .f32)
    (b : Vec Ideal S1x64 .f32) (Wo : Vec Ideal S64x1 .f32) (bo : Vec Ideal S1x1 .f32) (ι : Fin 5000 → Fin 50000)
    (h0 : ∀ p k, x0 (ix2 p k) = A (ix2 (ι p) k)) (h1 : ∀ p k, x1 (ix2 p k) = H (ix2 (ι p) k)) (p : Fin 5000) (q : Fin 1) :
    k2_pay2 (F := Ideal) x0 Wl b x1 Wr Wo bo (ix2 p q)
      = projAt (M := 50000) (layerAt (M := 50000) A H Wl Wr (fun q => b (ix2 0 q))) Wo (bo (ix2 0 0)) (ix2 (ι p) q) := by
  rw [pay2o]
  exact projAt_rows _ _ Wo _ ι (fun p k => layerAt_rows A H x0 x1 Wl Wr _ ι h0 h1 p k) p q

/-- The first row-tiled operand's block at point `t` is rows `5000·t … 5000·t + 4999` of its array. -/
theorem iblk_rows0 (c : Dev nD) (t : Fin cfg2.N) (p : Fin 5000) (k : Fin 64) :
    (iblk2 (F := Ideal) V c 0 t : Vec Ideal S5000x64 .f32) (ix2 p k) = (V c main_v52 : S50000x64.Idx → EReal) (ix2 (rowOf t p) k) := by
  obtain ⟨-, -, e0, e1, -⟩ := idx_facts2 t
  unfold iblk2
  rw [View.read_apply]
  show (V c main_v52 : S50000x64.Idx → EReal) _ = (V c main_v52 : S50000x64.Idx → EReal) _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 64 + 1 * k.val = k.val; rw [e1]; omega

/-- The second row-tiled operand's block at point `t` is the same rows of its array. -/
theorem iblk_rows1 (c : Dev nD) (t : Fin cfg2.N) (p : Fin 5000) (k : Fin 64) :
    (iblk2 (F := Ideal) V c 1 t : Vec Ideal S5000x64 .f32) (ix2 p k) = (V c main_v40 : S50000x64.Idx → EReal) (ix2 (rowOf t p) k) := by
  obtain ⟨-, -, -, -, e0, e1, -⟩ := idx_facts2 t
  unfold iblk2
  rw [View.read_apply]
  show (V c main_v40 : S50000x64.Idx → EReal) _ = (V c main_v40 : S50000x64.Idx → EReal) _
  congr 1
  funext a
  apply Fin.ext
  match a with
  | ⟨0, _⟩ => show win2_1.index t (0 : Fin 2) * 5000 + 1 * p.val = 5000 * t.val + p.val; rw [e0]; omega
  | ⟨1, _⟩ => show win2_1.index t (1 : Fin 2) * 64 + 1 * k.val = k.val; rw [e1]; omega

/-- The left weights' block at every point is the whole array: its block index is (0, 0) and the block has the array's size. -/
theorem iblk_whole2 (c : Dev nD) (t : Fin cfg2.N) : (iblk2 (F := Ideal) V c 2 t : Vec Ideal S64x64 .f32) = V c main_arg8 := by
  obtain ⟨-, -, -, -, -, -, e0, e1, -⟩ := idx_facts2 t
  funext j
  unfold iblk2
  rw [View.read_apply]
  show (V c main_arg8 : S64x64.Idx → EReal) _ = (V c main_arg8 : S64x64.Idx → EReal) _
  congr 1
  funext a
  apply Fin.ext
  match a with
  | ⟨0, _⟩ => show win2_2.index t (0 : Fin 2) * 64 + 1 * (j 0).val = (j 0).val; rw [e0]; omega
  | ⟨1, _⟩ => show win2_2.index t (1 : Fin 2) * 64 + 1 * (j 1).val = (j 1).val; rw [e1]; omega

/-- So is the bias row's. -/
theorem iblk_whole3 (c : Dev nD) (t : Fin cfg2.N) : (iblk2 (F := Ideal) V c 3 t : Vec Ideal S1x64 .f32) = V c main_v53 := by
  obtain ⟨-, -, -, -, -, -, -, -, e0, e1, -⟩ := idx_facts2 t
  funext j
  unfold iblk2
  rw [View.read_apply]
  show (V c main_v53 : S1x64.Idx → EReal) _ = (V c main_v53 : S1x64.Idx → EReal) _
  congr 1
  funext a
  apply Fin.ext
  match a with
  | ⟨0, _⟩ => show win2_3.index t (0 : Fin 2) * 1 + 1 * (j 0).val = (j 0).val; rw [e0]; omega
  | ⟨1, _⟩ => show win2_3.index t (1 : Fin 2) * 64 + 1 * (j 1).val = (j 1).val; rw [e1]; omega

/-- So is the right weights'. -/
theorem iblk_whole4 (c : Dev nD) (t : Fin cfg2.N) : (iblk2 (F := Ideal) V c 4 t : Vec Ideal S64x64 .f32) = V c main_arg10 := by
  obtain ⟨-, -, -, -, -, -, -, -, -, -, e0, e1, -⟩ := idx_facts2 t
  funext j
  unfold iblk2
  rw [View.read_apply]
  show (V c main_arg10 : S64x64.Idx → EReal) _ = (V c main_arg10 : S64x64.Idx → EReal) _
  congr 1
  funext a
  apply Fin.ext
  match a with
  | ⟨0, _⟩ => show win2_4.index t (0 : Fin 2) * 64 + 1 * (j 0).val = (j 0).val; rw [e0]; omega
  | ⟨1, _⟩ => show win2_4.index t (1 : Fin 2) * 64 + 1 * (j 1).val = (j 1).val; rw [e1]; omega

/-- So is the projection column's. -/
theorem iblk_whole5 (c : Dev nD) (t : Fin cfg2.N) : (iblk2 (F := Ideal) V c 5 t : Vec Ideal S64x1 .f32) = V c main_arg11 := by
  obtain ⟨-, -, -, -, -, -, -, -, -, -, -, -, e0, e1, -⟩ := idx_facts2 t
  funext j
  unfold iblk2
  rw [View.read_apply]
  show (V c main_arg11 : S64x1.Idx → EReal) _ = (V c main_arg11 : S64x1.Idx → EReal) _
  congr 1
  funext a
  apply Fin.ext
  match a with
  | ⟨0, _⟩ => show win2_5.index t (0 : Fin 2) * 64 + 1 * (j 0).val = (j 0).val; rw [e0]; omega
  | ⟨1, _⟩ => show win2_5.index t (1 : Fin 2) * 1 + 1 * (j 1).val = (j 1).val; rw [e1]; omega

/-- So is the projection's bias. -/
theorem iblk_whole6 (c : Dev nD) (t : Fin cfg2.N) : (iblk2 (F := Ideal) V c 6 t : Vec Ideal S1x1 .f32) = V c main_v54 := by
  obtain ⟨-, -, -, -, -, -, -, -, -, -, -, -, -, -, e0, e1⟩ := idx_facts2 t
  funext j
  unfold iblk2
  rw [View.read_apply]
  show (V c main_v54 : S1x1.Idx → EReal) _ = (V c main_v54 : S1x1.Idx → EReal) _
  congr 1
  funext a
  apply Fin.ext
  match a with
  | ⟨0, _⟩ => show win2_6.index t (0 : Fin 2) * 1 + 1 * (j 0).val = (j 0).val; rw [e0]; omega
  | ⟨1, _⟩ => show win2_6.index t (1 : Fin 2) * 1 + 1 * (j 1).val = (j 1).val; rw [e1]; omega

/-- Entry (p, q) of the result column's block at point `t` sits in the array at row `5000·t + p`, column q. -/
theorem emb8 (t : Fin cfg2.N) (p : Fin 5000) (q : Fin 1) :
    (((cfg2.win 8).blk t).view.emb (ix2 p q) : S50000x1.Idx) = ix2 (rowOf t p) q := by
  obtain ⟨e0, e1, -⟩ := idx_facts2 t
  funext a
  apply Fin.ext
  match a with
  | ⟨0, _⟩ => show win2_8.index t (0 : Fin 2) * 5000 + 1 * p.val = 5000 * t.val + p.val; rw [e0]; omega
  | ⟨1, _⟩ => show win2_8.index t (1 : Fin 2) * 1 + 1 * q.val = q.val; rw [e1]; omega

/-- The result column the region leaves: the projection of the third layer on the whole arrays the region finds. -/
abbrev resultCol (c : Dev nD) : S50000x1.Idx → EReal :=
  projAt (M := 50000)
    (layerAt (M := 50000) (V c main_v52) (V c main_v40) (V c main_arg8) (V c main_arg10)
      (fun q => (V c main_v53 : S1x64.Idx → EReal) (ix2 0 q)))
    (V c main_arg11) ((V c main_v54 : S1x1.Idx → EReal) (ix2 0 0))

/-- What point `t` writes back is block `t` of the result column. -/
theorem flushed2_8_eq (c : Dev nD) (t : Fin cfg2.N) :
    (dat2 (F := Ideal) V c).flushed 8 t = ((cfg2.win 8).blk t).view.read (Elt Ideal) (resultCol V c) := by
  show (cfg2.win 8).cut (grid2.coords t) ((dat2 (F := Ideal) V c).after 8 t) = _
  rw [after2_8]
  unfold out2_8
  rw [View.canon_unit_zero hz2]
  simp only [View.ld_unit_zero (S := S5000x64) hz2, View.ld_unit_zero (S := S64x64) hz2, View.ld_unit_zero (S := S1x64) hz2,
    View.ld_unit_zero (S := S64x1) hz2, View.ld_unit_zero (S := S1x1) hz2]
  refine funext fun (y : S5000x1.Idx) => ?_
  obtain ⟨p, q, rfl⟩ : ∃ (p : Fin 5000) (q : Fin 1), y = ix2 p q := ⟨y 0, y 1, eq_ix2 y⟩
  show k2_pay2 (F := Ideal) (iblk2 V c 0 t) (iblk2 V c 2 t) (iblk2 V c 3 t) (iblk2 V c 1 t) (iblk2 V c 4 t) (iblk2 V c 5 t) (iblk2 V c 6 t) (ix2 p q)
    = resultCol V c (((cfg2.win 8).blk t).view.emb (ix2 p q))
  rw [emb8, iblk_whole2, iblk_whole3, iblk_whole4, iblk_whole5, iblk_whole6]
  exact block_value (V c main_v52) (V c main_v40) (iblk2 V c 0 t) (iblk2 V c 1 t) (V c main_arg8) (V c main_arg10) (V c main_v53)
    (V c main_arg11) (V c main_v54) (rowOf t) (iblk_rows0 V c t) (iblk_rows1 V c t) p q

/-- A row and column of the array is in point `t`'s block iff each coordinate is in the block's range on its axis. -/
theorem mem_blk2_8 (t : Fin cfg2.N) (i : S50000x1.Idx) :
    i ∈ ((cfg2.win 8).blk t).view.set ↔ ∀ a : Fin 2, win2_8.index t a * S5000x1.size a ≤ (i a).val ∧ (i a).val < win2_8.index t a * S5000x1.size a + S5000x1.size a := by
  show i ∈ ((View.whole main_v55_1).slice (win2_8.rect t)).set ↔ _
  rw [View.set_slice_whole, Rect.mem_set_unit]
  exact Iff.rfl

/-- The ten blocks tile the column: row `r` is in the block of point `r / 5000`, and every point writes back. -/
theorem covered2_8 (i : S50000x1.Idx) :
    ∃ t : Fin cfg2.N, (cfg2.win 8).flush t = true ∧ i ∈ ((cfg2.win 8).blk t).view.set := by
  have hi0 : (i 0).val < 50000 := (i 0).isLt
  have hi1 : (i 1).val < 1 := (i 1).isLt
  have hlt : (i 0).val / 5000 < cfg2.N := by rw [N2]; omega
  obtain ⟨t, ht⟩ : ∃ t : Fin cfg2.N, t.val = (i 0).val / 5000 := ⟨⟨(i 0).val / 5000, hlt⟩, rfl⟩
  obtain ⟨e0, e1, -⟩ := idx_facts2 t
  refine ⟨t, flush2_8 t, ?_⟩
  rw [mem_blk2_8]
  intro a
  match a with
  | ⟨0, _⟩ => show win2_8.index t (0 : Fin 2) * 5000 ≤ (i 0).val ∧ (i 0).val < win2_8.index t (0 : Fin 2) * 5000 + 5000; rw [e0, ht]; omega
  | ⟨1, _⟩ => show win2_8.index t (1 : Fin 2) * 1 ≤ (i 1).val ∧ (i 1).val < win2_8.index t (1 : Fin 2) * 1 + 1; rw [e1]; omega

theorem region2_value (c : Dev nD) :
    (dat2 (F := Ideal) V c).arrAt 8 cfg2.N
      = projAt (M := 50000)
          (layerAt (M := 50000) (V c main_v52) (V c main_v40) (V c main_arg8) (V c main_arg10)
            (fun q => (V c main_v53 : S1x64.Idx → EReal) (ix2 0 q)))
          (V c main_arg11) ((V c main_v54 : S1x1.Idx → EReal) (ix2 0 0)) :=
  (dat2 (F := Ideal) V c).arrAt_eq_of_cover 8 (resultCol V c) (fun t _ => flushed2_8_eq V c t) covered2_8

end Cert.Sage

end
-- ==== Proof.KCompose.lean ====
/-
  The idealized kernel's result, read back through @main: the result vector is the last region's column; that
  column is the projection of the third layer on what the third stretch of host operations hands the region; each
  layer's inputs are the previous region's array and its aggregate, the edge rows and reciprocal degrees computed
  once before the first region and untouched since; and the first layer's are the argument arrays.  Composed,
  the result is the network's function of the arguments.
-/
import proofs.«427629_j87247965651265_3_alg».proof.Proof.Gen.KernelIdeal.Frame
import proofs.«427629_j87247965651265_3_alg».proof.Proof.KHost
import proofs.«427629_j87247965651265_3_alg».proof.Proof.Region0
import proofs.«427629_j87247965651265_3_alg».proof.Proof.Region1
import proofs.«427629_j87247965651265_3_alg».proof.Proof.Region2

set_option maxRecDepth 16384

noncomputable section

namespace Cert.Sage

open Idealize.ShloMosaic Idealize.ShloMosaic.TcCoe Idealize.ShloMosaic.ValueIdx Idealize.SL.Sem Idealize.ShloMosaic.StableHlo
open Cert.KernelIdeal Cert.KernelIdeal.Gen

variable [Cert.KernelIdeal.Facts]

variable (m : (ℓ : Loc nD τ sig) → Buf (Elt Ideal) ℓ) (ρ : Dev nD → PrngReg) (c : Dev nD)

/-! ## At the first region's entry -/

theorem W1_v1 : W1 m ρ c (Proc.devRef .tc main_v1) = srcRow (m ((c : Thread nD τ).loc main_arg1)) := h0_v1 (W0 m ρ c)
theorem W1_v3 : W1 m ρ c (Proc.devRef .tc main_v3) = dstRow (m ((c : Thread nD τ).loc main_arg1)) := h0_v3 (W0 m ρ c)
theorem W1_v12 : W1 m ρ c (Proc.devRef .tc main_v12) = invCol (dstRow (m ((c : Thread nD τ).loc main_arg1))) := h0_v12 (W0 m ρ c)
theorem W1_v24 : W1 m ρ c (Proc.devRef .tc main_v24)
    = aggF (m ((c : Thread nD τ).loc main_arg0)) (srcRow (m ((c : Thread nD τ).loc main_arg1))) (dstRow (m ((c : Thread nD τ).loc main_arg1))) (invCol (dstRow (m ((c : Thread nD τ).loc main_arg1)))) := h0_v24 (W0 m ρ c)
theorem W1_v25 (q : Fin 64) : (W1 m ρ c (Proc.devRef .tc main_v25) : S1x64.Idx → EReal) (ix2 0 q) = biasOf (m ((c : Thread nD τ).loc main_arg3)) q :=
  h0_v25 (W0 m ρ c) q
theorem W1_keep (b : Ref sig .tc) (hb : b ∈ keep0) : W1 m ρ c (Proc.devRef .tc b) = m ((c : Thread nD τ).loc b) :=
  h0_keep (W0 m ρ c) b hb

/-- The first layer's array, at the first region's exit. -/
theorem W2_v26 : (W2 m ρ c (Proc.devRef .tc main_v26) : S50000x64.Idx → EReal)
    = layerAt (M := 50000) (aggF (m ((c : Thread nD τ).loc main_arg0)) (srcRow (m ((c : Thread nD τ).loc main_arg1))) (dstRow (m ((c : Thread nD τ).loc main_arg1))) (invCol (dstRow (m ((c : Thread nD τ).loc main_arg1))))) (m ((c : Thread nD τ).loc main_arg0)) (m ((c : Thread nD τ).loc main_arg2)) (m ((c : Thread nD τ).loc main_arg4)) (biasOf (m ((c : Thread nD τ).loc main_arg3))) := by
  refine (W2_arr m ρ c 5).trans ((region0_value (V1 m ρ) c).trans ?_)
  show layerAt (M := 50000) (W1 m ρ c (Proc.devRef .tc main_v24)) (W1 m ρ c (Proc.devRef .tc main_arg0)) (W1 m ρ c (Proc.devRef .tc main_arg2)) (W1 m ρ c (Proc.devRef .tc main_arg4))
      (fun q => (W1 m ρ c (Proc.devRef .tc main_v25) : S1x64.Idx → EReal) (ix2 0 q)) = _
  rw [W1_v24, W1_keep m ρ c main_arg0 (by decide), W1_keep m ρ c main_arg2 (by decide), W1_keep m ρ c main_arg4 (by decide)]
  exact congrArg _ (funext fun q => W1_v25 m ρ c q)

/-- A buffer the first region does not own, and the first stretch does not write, is at its launch contents at the
    first region's exit. -/
theorem W2_keep (b : Ref sig .tc) (hb : b ∈ keep0) (hne : ∀ w, Pipeline.arrRef spec0 w ≠ b) :
    W2 m ρ c (Proc.devRef .tc b) = m ((c : Thread nD τ).loc b) :=
  (W2_of_ne m ρ c b hne).trans (W1_keep m ρ c b hb)

theorem W2_v1 : W2 m ρ c (Proc.devRef .tc main_v1) = srcRow (m ((c : Thread nD τ).loc main_arg1)) := (W2_of_ne m ρ c main_v1 (by decide)).trans (W1_v1 m ρ c)
theorem W2_v3 : W2 m ρ c (Proc.devRef .tc main_v3) = dstRow (m ((c : Thread nD τ).loc main_arg1)) := (W2_of_ne m ρ c main_v3 (by decide)).trans (W1_v3 m ρ c)
theorem W2_v12 : W2 m ρ c (Proc.devRef .tc main_v12) = invCol (dstRow (m ((c : Thread nD τ).loc main_arg1))) := (W2_of_ne m ρ c main_v12 (by decide)).trans (W1_v12 m ρ c)

/-! ## The three layers' arrays, as functions of the arguments -/

/-- The first layer's array. -/
def K1 : FVec Ideal S50000x64 .f32 := layerAt (M := 50000) (aggF (m ((c : Thread nD τ).loc main_arg0)) (srcRow (m ((c : Thread nD τ).loc main_arg1))) (dstRow (m ((c : Thread nD τ).loc main_arg1))) (invCol (dstRow (m ((c : Thread nD τ).loc main_arg1))))) (m ((c : Thread nD τ).loc main_arg0)) (m ((c : Thread nD τ).loc main_arg2)) (m ((c : Thread nD τ).loc main_arg4)) (biasOf (m ((c : Thread nD τ).loc main_arg3)))
/-- The second layer's array. -/
def K2 : FVec Ideal S50000x64 .f32 := layerAt (M := 50000) (aggF (K1 m c) (srcRow (m ((c : Thread nD τ).loc main_arg1))) (dstRow (m ((c : Thread nD τ).loc main_arg1))) (invCol (dstRow (m ((c : Thread nD τ).loc main_arg1))))) (K1 m c) (m ((c : Thread nD τ).loc main_arg5)) (m ((c : Thread nD τ).loc main_arg7)) (biasOf (m ((c : Thread nD τ).loc main_arg6)))
/-- The third layer's array. -/
def K3 : FVec Ideal S50000x64 .f32 := layerAt (M := 50000) (aggF (K2 m c) (srcRow (m ((c : Thread nD τ).loc main_arg1))) (dstRow (m ((c : Thread nD τ).loc main_arg1))) (invCol (dstRow (m ((c : Thread nD τ).loc main_arg1))))) (K2 m c) (m ((c : Thread nD τ).loc main_arg8)) (m ((c : Thread nD τ).loc main_arg10)) (biasOf (m ((c : Thread nD τ).loc main_arg9)))

theorem W2_v26' : (W2 m ρ c (Proc.devRef .tc main_v26) : S50000x64.Idx → EReal) = K1 m c := W2_v26 m ρ c

/-! ## At the second region's entry and exit -/

theorem W3_keep (b : Ref sig .tc) (hb : b ∈ keep1) : W3 m ρ c (Proc.devRef .tc b) = W2 m ρ c (Proc.devRef .tc b) :=
  h1_keep (W2 m ρ c) b hb

theorem W3_arg (b : Ref sig .tc) (hb1 : b ∈ keep1) (hb0 : b ∈ keep0) (hne : ∀ w, Pipeline.arrRef spec0 w ≠ b) :
    W3 m ρ c (Proc.devRef .tc b) = m ((c : Thread nD τ).loc b) :=
  (W3_keep m ρ c b hb1).trans (W2_keep m ρ c b hb0 hne)

theorem W3_v38 : W3 m ρ c (Proc.devRef .tc main_v38) = aggF (K1 m c) (srcRow (m ((c : Thread nD τ).loc main_arg1))) (dstRow (m ((c : Thread nD τ).loc main_arg1))) (invCol (dstRow (m ((c : Thread nD τ).loc main_arg1)))) := by
  refine (h1_v38 (W2 m ρ c)).trans ?_
  rw [W2_v26', W2_v1, W2_v3, W2_v12]

theorem W3_v39 (q : Fin 64) : (W3 m ρ c (Proc.devRef .tc main_v39) : S1x64.Idx → EReal) (ix2 0 q) = biasOf (m ((c : Thread nD τ).loc main_arg6)) q :=
  (h1_v39 (W2 m ρ c) q).trans (congrArg (fun b => biasOf b q) (W2_keep m ρ c main_arg6 (by decide) (by decide)))

theorem W3_v26 : (W3 m ρ c (Proc.devRef .tc main_v26) : S50000x64.Idx → EReal) = K1 m c :=
  (W3_keep m ρ c main_v26 (by decide)).trans (W2_v26' m ρ c)
theorem W3_v1 : W3 m ρ c (Proc.devRef .tc main_v1) = (srcRow (m ((c : Thread nD τ).loc main_arg1))) := (W3_keep m ρ c main_v1 (by decide)).trans (W2_v1 m ρ c)
theorem W3_v3 : W3 m ρ c (Proc.devRef .tc main_v3) = (dstRow (m ((c : Thread nD τ).loc main_arg1))) := (W3_keep m ρ c main_v3 (by decide)).trans (W2_v3 m ρ c)
theorem W3_v12 : W3 m ρ c (Proc.devRef .tc main_v12) = (invCol (dstRow (m ((c : Thread nD τ).loc main_arg1)))) := (W3_keep m ρ c main_v12 (by decide)).trans (W2_v12 m ρ c)

/-- The second layer's array, at the second region's exit. -/
theorem W4_v40 : (W4 m ρ c (Proc.devRef .tc main_v40) : S50000x64.Idx → EReal) = K2 m c := by
  refine (W4_arr m ρ c 5).trans ((region1_value (V3 m ρ) c).trans ?_)
  show layerAt (M := 50000) (W3 m ρ c (Proc.devRef .tc main_v38)) (W3 m ρ c (Proc.devRef .tc main_v26)) (W3 m ρ c (Proc.devRef .tc main_arg5)) (W3 m ρ c (Proc.devRef .tc main_arg7))
      (fun q => (W3 m ρ c (Proc.devRef .tc main_v39) : S1x64.Idx → EReal) (ix2 0 q)) = _
  rw [W3_v38, W3_v26, W3_arg m ρ c main_arg5 (by decide) (by decide) (by decide), W3_arg m ρ c main_arg7 (by decide) (by decide) (by decide)]
  exact congrArg _ (funext fun q => W3_v39 m ρ c q)

theorem W4_arg (b : Ref sig .tc) (hb1 : b ∈ keep1) (hb0 : b ∈ keep0) (hne0 : ∀ w, Pipeline.arrRef spec0 w ≠ b)
    (hne1 : ∀ w, Pipeline.arrRef spec1 w ≠ b) : W4 m ρ c (Proc.devRef .tc b) = m ((c : Thread nD τ).loc b) :=
  (W4_of_ne m ρ c b hne1).trans (W3_arg m ρ c b hb1 hb0 hne0)
theorem W4_v1 : W4 m ρ c (Proc.devRef .tc main_v1) = (srcRow (m ((c : Thread nD τ).loc main_arg1))) := (W4_of_ne m ρ c main_v1 (by decide)).trans (W3_v1 m ρ c)
theorem W4_v3 : W4 m ρ c (Proc.devRef .tc main_v3) = (dstRow (m ((c : Thread nD τ).loc main_arg1))) := (W4_of_ne m ρ c main_v3 (by decide)).trans (W3_v3 m ρ c)
theorem W4_v12 : W4 m ρ c (Proc.devRef .tc main_v12) = (invCol (dstRow (m ((c : Thread nD τ).loc main_arg1)))) := (W4_of_ne m ρ c main_v12 (by decide)).trans (W3_v12 m ρ c)

/-! ## At the third region's entry and exit, and the result -/

theorem W5_v52 : W5 m ρ c (Proc.devRef .tc main_v52) = aggF (K2 m c) (srcRow (m ((c : Thread nD τ).loc main_arg1))) (dstRow (m ((c : Thread nD τ).loc main_arg1))) (invCol (dstRow (m ((c : Thread nD τ).loc main_arg1)))) := by
  refine (h2_v52 (W4 m ρ c)).trans ?_
  rw [W4_v40, W4_v1, W4_v3, W4_v12]

theorem W5_v53 (q : Fin 64) : (W5 m ρ c (Proc.devRef .tc main_v53) : S1x64.Idx → EReal) (ix2 0 q) = biasOf (m ((c : Thread nD τ).loc main_arg9)) q :=
  (h2_v53 (W4 m ρ c) q).trans (congrArg (fun b => biasOf b q) (W4_arg m ρ c main_arg9 (by decide) (by decide) (by decide) (by decide)))

theorem W5_v54 : (W5 m ρ c (Proc.devRef .tc main_v54) : S1x1.Idx → EReal) (ix2 0 0) = ((m ((c : Thread nD τ).loc main_arg12)) : S1.Idx → EReal) (ix1 0) :=
  (h2_v54 (W4 m ρ c)).trans (congrFun (W4_arg m ρ c main_arg12 (by decide) (by decide) (by decide) (by decide)) (ix1 0))

theorem W5_v40 : (W5 m ρ c (Proc.devRef .tc main_v40) : S50000x64.Idx → EReal) = K2 m c :=
  (h2_keep (W4 m ρ c) main_v40 (by decide)).trans (W4_v40 m ρ c)
theorem W5_arg (b : Ref sig .tc) (hb2 : b ∈ keep2) (hb1 : b ∈ keep1) (hb0 : b ∈ keep0) (hne0 : ∀ w, Pipeline.arrRef spec0 w ≠ b)
    (hne1 : ∀ w, Pipeline.arrRef spec1 w ≠ b) : W5 m ρ c (Proc.devRef .tc b) = m ((c : Thread nD τ).loc b) :=
  (h2_keep (W4 m ρ c) b hb2).trans (W4_arg m ρ c b hb1 hb0 hne0 hne1)

/-- The result column, at the third region's exit. -/
theorem W6_v55 : (W6 m ρ c (Proc.devRef .tc main_v55_1) : S50000x1.Idx → EReal) = projAt (M := 50000) (K3 m c) (m ((c : Thread nD τ).loc main_arg11)) (((m ((c : Thread nD τ).loc main_arg12)) : S1.Idx → EReal) (ix1 0)) := by
  refine (W6_arr m ρ c 8).trans ((region2_value (V5 m ρ) c).trans ?_)
  show projAt (M := 50000) (layerAt (M := 50000) (W5 m ρ c (Proc.devRef .tc main_v52)) (W5 m ρ c (Proc.devRef .tc main_v40)) (W5 m ρ c (Proc.devRef .tc main_arg8)) (W5 m ρ c (Proc.devRef .tc main_arg10))
      (fun q => (W5 m ρ c (Proc.devRef .tc main_v53) : S1x64.Idx → EReal) (ix2 0 q))) (W5 m ρ c (Proc.devRef .tc main_arg11))
      ((W5 m ρ c (Proc.devRef .tc main_v54) : S1x1.Idx → EReal) (ix2 0 0)) = _
  rw [W5_v52, W5_v40, W5_v54, W5_arg m ρ c main_arg8 (by decide) (by decide) (by decide) (by decide) (by decide),
    W5_arg m ρ c main_arg10 (by decide) (by decide) (by decide) (by decide) (by decide),
    W5_arg m ρ c main_arg11 (by decide) (by decide) (by decide) (by decide) (by decide)]
  have hb : (fun q => (W5 m ρ c (Proc.devRef .tc main_v53) : S1x64.Idx → EReal) (ix2 0 q)) = biasOf (m ((c : Thread nD τ).loc main_arg9)) := funext fun q => W5_v53 m ρ c q
  rw [hb]
  rfl

/-- THE KERNEL'S RESULT: the result buffer at the last boundary is the network's function of the argument arrays. -/
theorem kernel_out : (W7 m ρ c (Proc.devRef .tc main_v56) : S50000.Idx → EReal)
    = sage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (h3_v56 (W6 m ρ c)).trans ?_
  rw [W6_v55]
  rfl

end Cert.Sage

end
-- ==== Proof.RRun.lean ====
/-
  The idealized reference's @main is a straight line of host operations: its own ninety-odd and, at each of its
  three calls of the leaky rectifier, that function's six operations and the select of the function it calls in
  turn, laid out in place over the call's own buffers.  So every weakly fair execution terminates, and every buffer
  ends at the fold of those operations over the launch contents.
-/
import proofs.«427629_j87247965651265_3_alg».proof.Proof.Gen.ReferenceIdeal
import Idealize.ShloMosaic.Lib.StableHlo.Run

noncomputable section

namespace Cert.Sage.RRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, each call's body in place. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (maximumf : (⟨S50000, .f32⟩ : BufTy).Contents (Elt F) → (⟨S50000, .f32⟩ : BufTy).Contents (Elt F) → (⟨S50000, .f32⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v10 main_v9 main_v11 (Host.divf : (⟨S50000, .f32⟩ : BufTy).Contents (Elt F) → (⟨S50000, .f32⟩ : BufTy).Contents (Elt F) → (⟨S50000, .f32⟩ : BufTy).Contents (Elt F)),
    unary main_v11 main_v12 (broadcastInDim S50000x1 ![0] bcast_S50000_S50000x1_0 : (⟨S50000, .f32⟩ : BufTy).Contents (Elt F) → (⟨S50000x1, .f32⟩ : BufTy).Contents (Elt F)),
    nullary main_c (constantI S_ 32 0#32),
    unary main_c main_v13 (broadcastInDim S800000 ![] bcast_S_S800000 : (⟨S_, .i32⟩ : BufTy).Contents (Elt F) → (⟨S800000, .i32⟩ : BufTy).Contents (Elt F)),
    binary main_v1 main_v13 main_v14 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v15 (broadcastInDim S800000 ![] bcast_S_S800000 : (⟨S_, .i32⟩ : BufTy).Contents (Elt F) → (⟨S800000, .i32⟩ : BufTy).Contents (Elt F)),
    binary main_v1 main_v15 main_v16 (addi : (⟨S800000, .i32⟩ : BufTy).Contents (Elt F) → (⟨S800000, .i32⟩ : BufTy).Contents (Elt F) → (⟨S800000, .i32⟩ : BufTy).Contents (Elt F)),
    ternary main_v14 main_v16 main_v1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v17 main_v18 (broadcastInDim S800000x1 ![0] bcast_S800000_S800000x1_0 : (⟨S800000, .i32⟩ : BufTy).Contents (Elt F) → (⟨S800000x1, .i32⟩ : BufTy).Contents (Elt F)),
    binary main_arg0 main_v18 main_v19 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_4 (constant S_ .f32 0x00000000#32),
    unary main_cst_4 main_v20 (broadcastInDim S50000x64 ![] bcast_S_S50000x64 : (⟨S_, .f32⟩ : BufTy).Contents (Elt F) → (⟨S50000x64, .f32⟩ : BufTy).Contents (Elt F)),
    unary main_v3 main_v21 (broadcastInDim S800000x1 ![0] bcast_S800000_S800000x1_0 : (⟨S800000, .i32⟩ : BufTy).Contents (Elt F) → (⟨S800000x1, .i32⟩ : BufTy).Contents (Elt F)),
    ternary main_v20 main_v21 main_v19 main_v22 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v12 main_v23 (broadcastInDim S50000x64 ![0, 1] bcast_S50000x1_S50000x64_0_1 : (⟨S50000x1, .f32⟩ : BufTy).Contents (Elt F) → (⟨S50000x64, .f32⟩ : BufTy).Contents (Elt F)),
    binary main_v22 main_v23 main_v24 (mulf : (⟨S50000x64, .f32⟩ : BufTy).Contents (Elt F) → (⟨S50000x64, .f32⟩ : BufTy).Contents (Elt F) → (⟨S50000x64, .f32⟩ : BufTy).Contents (Elt F)),
    binary main_v24 main_arg2 main_v25 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg3 main_v26 (broadcastInDim S1x64 ![1] bcast_S64_S1x64_1 : (⟨S64, .f32⟩ : BufTy).Contents (Elt F) → (⟨S1x64, .f32⟩ : BufTy).Contents (Elt F)),
    unary main_v26 main_v27 (broadcastInDim S50000x64 ![0, 1] bcast_S1x64_S50000x64_0_1 : (⟨S1x64, .f32⟩ : BufTy).Contents (Elt F) → (⟨S50000x64, .f32⟩ : BufTy).Contents (Elt F)),
    binary main_v25 main_v27 main_v28 (addf : (⟨S50000x64, .f32⟩ : BufTy).Contents (Elt F) → (⟨S50000x64, .f32⟩ : BufTy).Contents (Elt F) → (⟨S50000x64, .f32⟩ : BufTy).Contents (Elt F)),
    binary main_arg0 main_arg4 main_v29 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v28 main_v29 main_v30 (addf : (⟨S50000x64, .f32⟩ : BufTy).Contents (Elt F) → (⟨S50000x64, .f32⟩ : BufTy).Contents (Elt F) → (⟨S50000x64, .f32⟩ : BufTy).Contents (Elt F)),
    nullary main_cst_5 (constant S_ .f32 0x3C23D70A#32),
    TRef.nullary main_call0.cst (constant S_ .f32 0x00000000#32),
    TRef.unary main_call0.cst main_call0.v0 (broadcastInDim S50000x64 ![] bcast_S_S50000x64),
    TRef.binary (.of main_v30) main_call0.v0 main_call0.v1 (cmpf .oge),
    TRef.unary (.of main_cst_5) main_call0.v2 id,
    TRef.unary main_call0.v2 main_call0.v3 (broadcastInDim S50000x64 ![] bcast_S_S50000x64),
    TRef.binary main_call0.v3 (.of main_v30) main_call0.v4 mulf,
    TRef.ternary main_call0.v1 (.of main_v30) main_call0.v4 main_call0.call0.v0 select,
    nullary main_c_6 (constantI S_ 32 0#32),
    unary main_c_6 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v31 main_v37 main_v38 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_8 (constant S_ .f32 0x00000000#32),
    unary main_cst_8 main_v39 (broadcastInDim S50000x64 ![] bcast_S_S50000x64 : (⟨S_, .f32⟩ : BufTy).Contents (Elt F) → (⟨S50000x64, .f32⟩ : BufTy).Contents (Elt F)),
    unary main_v3 main_v40 (broadcastInDim S800000x1 ![0] bcast_S800000_S800000x1_0 : (⟨S800000, .i32⟩ : BufTy).Contents (Elt F) → (⟨S800000x1, .i32⟩ : BufTy).Contents (Elt F)),
    ternary main_v39 main_v40 main_v38 main_v41 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v12 main_v42 (broadcastInDim S50000x64 ![0, 1] bcast_S50000x1_S50000x64_0_1 : (⟨S50000x1, .f32⟩ : BufTy).Contents (Elt F) → (⟨S50000x64, .f32⟩ : BufTy).Contents (Elt F)),
    binary main_v41 main_v42 main_v43 (mulf : (⟨S50000x64, .f32⟩ : BufTy).Contents (Elt F) → (⟨S50000x64, .f32⟩ : BufTy).Contents (Elt F) → (⟨S50000x64, .f32⟩ : BufTy).Contents (Elt F)),
    binary main_v43 main_arg5 main_v44 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v45 (broadcastInDim S1x64 ![1] bcast_S64_S1x64_1 : (⟨S64, .f32⟩ : BufTy).Contents (Elt F) → (⟨S1x64, .f32⟩ : BufTy).Contents (Elt F)),
    unary main_v45 main_v46 (broadcastInDim S50000x64 ![0, 1] bcast_S1x64_S50000x64_0_1 : (⟨S1x64, .f32⟩ : BufTy).Contents (Elt F) → (⟨S50000x64, .f32⟩ : BufTy).Contents (Elt F)),
    binary main_v44 main_v46 main_v47 (addf : (⟨S50000x64, .f32⟩ : BufTy).Contents (Elt F) → (⟨S50000x64, .f32⟩ : BufTy).Contents (Elt F) → (⟨S50000x64, .f32⟩ : BufTy).Contents (Elt F)),
    binary main_v31 main_arg7 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v47 main_v48 main_v49 (addf : (⟨S50000x64, .f32⟩ : BufTy).Contents (Elt F) → (⟨S50000x64, .f32⟩ : BufTy).Contents (Elt F) → (⟨S50000x64, .f32⟩ : BufTy).Contents (Elt F)),
    nullary main_cst_9 (constant S_ .f32 0x3C23D70A#32),
    TRef.nullary main_call1.cst (constant S_ .f32 0x00000000#32),
    TRef.unary main_call1.cst main_call1.v0 (broadcastInDim S50000x64 ![] bcast_S_S50000x64),
    TRef.binary (.of main_v49) main_call1.v0 main_call1.v1 (cmpf .oge),
    TRef.unary (.of main_cst_9) main_call1.v2 id,
    TRef.unary main_call1.v2 main_call1.v3 (broadcastInDim S50000x64 ![] bcast_S_S50000x64),
    TRef.binary main_call1.v3 (.of main_v49) main_call1.v4 mulf,
    TRef.ternary main_call1.v1 (.of main_v49) main_call1.v4 main_call1.call0.v0 select,
    nullary main_c_10 (constantI S_ 32 0#32),
    unary main_c_10 main_v51 (broadcastInDim S800000 ![] bcast_S_S800000 : (⟨S_, .i32⟩ : BufTy).Contents (Elt F) → (⟨S800000, .i32⟩ : BufTy).Contents (Elt F)),
    binary main_v1 main_v51 main_v52 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v53 (broadcastInDim S800000 ![] bcast_S_S800000 : (⟨S_, .i32⟩ : BufTy).Contents (Elt F) → (⟨S800000, .i32⟩ : BufTy).Contents (Elt F)),
    binary main_v1 main_v53 main_v54 (addi : (⟨S800000, .i32⟩ : BufTy).Contents (Elt F) → (⟨S800000, .i32⟩ : BufTy).Contents (Elt F) → (⟨S800000, .i32⟩ : BufTy).Contents (Elt F)),
    ternary main_v52 main_v54 main_v1 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v55 main_v56 (broadcastInDim S800000x1 ![0] bcast_S800000_S800000x1_0 : (⟨S800000, .i32⟩ : BufTy).Contents (Elt F) → (⟨S800000x1, .i32⟩ : BufTy).Contents (Elt F)),
    binary main_v50 main_v56 main_v57 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_12 (constant S_ .f32 0x00000000#32),
    unary main_cst_12 main_v58 (broadcastInDim S50000x64 ![] bcast_S_S50000x64 : (⟨S_, .f32⟩ : BufTy).Contents (Elt F) → (⟨S50000x64, .f32⟩ : BufTy).Contents (Elt F)),
    unary main_v3 main_v59 (broadcastInDim S800000x1 ![0] bcast_S800000_S800000x1_0 : (⟨S800000, .i32⟩ : BufTy).Contents (Elt F) → (⟨S800000x1, .i32⟩ : BufTy).Contents (Elt F)),
    ternary main_v58 main_v59 main_v57 main_v60 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v12 main_v61 (broadcastInDim S50000x64 ![0, 1] bcast_S50000x1_S50000x64_0_1 : (⟨S50000x1, .f32⟩ : BufTy).Contents (Elt F) → (⟨S50000x64, .f32⟩ : BufTy).Contents (Elt F)),
    binary main_v60 main_v61 main_v62 (mulf : (⟨S50000x64, .f32⟩ : BufTy).Contents (Elt F) → (⟨S50000x64, .f32⟩ : BufTy).Contents (Elt F) → (⟨S50000x64, .f32⟩ : BufTy).Contents (Elt F)),
    binary main_v62 main_arg8 main_v63 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v64 (broadcastInDim S1x64 ![1] bcast_S64_S1x64_1 : (⟨S64, .f32⟩ : BufTy).Contents (Elt F) → (⟨S1x64, .f32⟩ : BufTy).Contents (Elt F)),
    unary main_v64 main_v65 (broadcastInDim S50000x64 ![0, 1] bcast_S1x64_S50000x64_0_1 : (⟨S1x64, .f32⟩ : BufTy).Contents (Elt F) → (⟨S50000x64, .f32⟩ : BufTy).Contents (Elt F)),
    binary main_v63 main_v65 main_v66 (addf : (⟨S50000x64, .f32⟩ : BufTy).Contents (Elt F) → (⟨S50000x64, .f32⟩ : BufTy).Contents (Elt F) → (⟨S50000x64, .f32⟩ : BufTy).Contents (Elt F)),
    binary main_v50 main_arg10 main_v67 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v66 main_v67 main_v68 (addf : (⟨S50000x64, .f32⟩ : BufTy).Contents (Elt F) → (⟨S50000x64, .f32⟩ : BufTy).Contents (Elt F) → (⟨S50000x64, .f32⟩ : BufTy).Contents (Elt F)),
    nullary main_cst_13 (constant S_ .f32 0x3C23D70A#32),
    TRef.nullary main_call2.cst (constant S_ .f32 0x00000000#32),
    TRef.unary main_call2.cst main_call2.v0 (broadcastInDim S50000x64 ![] bcast_S_S50000x64),
    TRef.binary (.of main_v68) main_call2.v0 main_call2.v1 (cmpf .oge),
    TRef.unary (.of main_cst_13) main_call2.v2 id,
    TRef.unary main_call2.v2 main_call2.v3 (broadcastInDim S50000x64 ![] bcast_S_S50000x64),
    TRef.binary main_call2.v3 (.of main_v68) main_call2.v4 mulf,
    TRef.ternary main_call2.v1 (.of main_v68) main_call2.v4 main_call2.call0.v0 select,
    binary main_v69 main_arg11 main_v70 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    unary main_arg12 main_v71 (broadcastInDim S1x1 ![1] bcast_S1_S1x1_1 : (⟨S1, .f32⟩ : BufTy).Contents (Elt F) → (⟨S1x1, .f32⟩ : BufTy).Contents (Elt F)),
    unary main_v71 main_v72 (broadcastInDim S50000x1 ![0, 1] bcast_S1x1_S50000x1_0_1 : (⟨S1x1, .f32⟩ : BufTy).Contents (Elt F) → (⟨S50000x1, .f32⟩ : BufTy).Contents (Elt F)),
    binary main_v70 main_v72 main_v73 (addf : (⟨S50000x1, .f32⟩ : BufTy).Contents (Elt F) → (⟨S50000x1, .f32⟩ : BufTy).Contents (Elt F) → (⟨S50000x1, .f32⟩ : BufTy).Contents (Elt F)),
    reshape main_v73 main_v74 rfl shapeCasts_S50000x1_S50000 ]

set_option maxRecDepth 8192 in
set_option maxHeartbeats 8000000 in
/-- @main is that line: the two functions' definitions unfolded at their calls, sequencing reassociated. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., reshape_bufs_sub ..⟩

/-- From any memory with zero counters every weakly fair execution of @main terminates, and every final state has
    each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Sage.RRun

end
-- ==== Proof.RKeep.lean ====
/-
  No operation of the idealized reference writes one of its argument buffers, so each argument buffer keeps its
  contents through the whole line of operations.
-/
import proofs.«427629_j87247965651265_3_alg».proof.Proof.RRun
import Idealize.ShloMosaic.PureOps.Ideal

noncomputable section

namespace Cert.Sage

open Idealize.ShloMosaic Idealize.ShloMosaic.TcCoe Idealize.SL.Sem Idealize.ShloMosaic.StableHlo
open Cert.ReferenceIdeal Cert.ReferenceIdeal.Gen

/-- The reference's argument buffers. -/
abbrev refArgs : List (Ref sig .tc) :=
  [main_arg0, main_arg1, main_arg2, main_arg3, main_arg4, main_arg5, main_arg6, main_arg7, main_arg8, main_arg9, main_arg10,
   main_arg11, main_arg12]

set_option maxRecDepth 8192 in
set_option maxHeartbeats 4000000 in
/-- An argument buffer after the reference's operations holds what it held before them. -/
theorem ref_keep (V : Valuation τ sig (Elt Ideal)) (b : Ref sig .tc) (hb : b ∈ refArgs) :
    after (RRun.ops (F := Ideal)) V (Proc.devRef .tc b) = V (Proc.devRef .tc b) := by
  refine after_of_forall_not_mem _ _ (List.forall_iff_forall_mem.mp ?_)
  simp only [List.mem_cons, List.mem_nil_iff, or_false] at hb
  rcases hb with rfl | rfl | rfl | rfl | rfl | rfl | rfl | rfl | rfl | rfl | rfl | rfl | rfl
  all_goals
    simp only [RRun.ops, List.Forall, TRef.nullary, TRef.unary, TRef.binary, TRef.ternary, nullary_writes, unary_writes,
      binary_writes, ternary_writes, reshape_writes, Finset.mem_singleton]
    repeat' apply And.intro
    all_goals exact devRef_ne_of_ne (by decide)

end Cert.Sage

end
-- ==== Proof.RValue.lean ====
/-
  What the idealized reference's operations leave in its result buffer, from any contents `V`: the network's
  function of the argument arrays.  The reference's host products, read at an entry, are the plain sums over
  the shared coordinate; its two-step broadcasts of a bias and of the reciprocal degrees read back the bias
  entry and the node's reciprocal degree; its rectifier is the same select, entry by entry.
-/
import proofs.«427629_j87247965651265_3_alg».proof.Proof.RRun
import proofs.«427629_j87247965651265_3_alg».proof.Proof.Spec
import Idealize.ShloMosaic.Lib.Pipeline.Value
import Idealize.ShloMosaic.Lib.ValueLayout

noncomputable section

namespace Cert.Sage

open Idealize.ShloMosaic Idealize.ShloMosaic.TcCoe Idealize.ShloMosaic.ValueIdx Idealize.SL.Sem Idealize.ShloMosaic.StableHlo

variable [Cert.KernelIdeal.Facts] [Cert.ReferenceIdeal.Facts]

variable (V : Valuation Cert.ReferenceIdeal.τ Cert.ReferenceIdeal.sig (Elt Ideal))

/-! ### The two programs' dimension records are the same records -/

theorem scatterDeg_eq : Cert.ReferenceIdeal.scatter_S50000_S800000x1_S800000_n_0_0_1 = Cert.KernelIdeal.scatter_S50000_S800000x1_S800000_n_0_0_1 := rfl
theorem scatterRows_eq : Cert.ReferenceIdeal.scatter_S50000x64_S800000x1_S800000x64_1_0_0_1 = Cert.KernelIdeal.scatter_S50000x64_S800000x1_S800000x64_1_0_0_1 := rfl
theorem gatherRows_eq : Cert.ReferenceIdeal.gather_S50000x64_S800000x1_S800000x64_1_0_n_n_0_1_164 = Cert.KernelIdeal.gather_S50000x64_S800000x1_S800000x64_1_0_n_n_0_1_164 := rfl
theorem dotLayer_eq : Cert.ReferenceIdeal.dot_S50000x64_S64x64_S50000x64_1_0_0_1_n_n = DotDims.plain 50000 64 64 := rfl
theorem dotProj_eq : Cert.ReferenceIdeal.dot_S50000x64_S64x1_S50000x1_1_0_0_1_n_n = DotDims.plain 50000 64 1 := rfl

/-- The reference's source row is the network's. -/
theorem ref_src (e : IVec Cert.ReferenceIdeal.S2x800000 32) :
    (fun i => shapeCast Cert.ReferenceIdeal.main_v1.ty.shape (extractStridedSlice Cert.ReferenceIdeal.S1x800000 ![0, 0] e Cert.ReferenceIdeal.Gen.slices_S2x800000_S1x800000_0_0) Cert.ReferenceIdeal.Gen.shapeCasts_S1x800000_S800000 i)
      = srcRow e := rfl

/-- The reference's destination row is the network's. -/
theorem ref_dst (e : IVec Cert.ReferenceIdeal.S2x800000 32) :
    (fun i => shapeCast Cert.ReferenceIdeal.main_v3.ty.shape (extractStridedSlice Cert.ReferenceIdeal.S1x800000 ![1, 0] e Cert.ReferenceIdeal.Gen.slices_S2x800000_S1x800000_1_0) Cert.ReferenceIdeal.Gen.shapeCasts_S1x800000_S800000 i)
      = dstRow e := rfl

/-- The reference's column of reciprocal degrees (a broadcast along the rows) is the network's, entry by entry. -/
theorem ref_invCol (v3 : IVec Cert.ReferenceIdeal.S800000 32) :
    broadcastInDim Cert.ReferenceIdeal.S50000x1 ![0] Cert.ReferenceIdeal.Gen.bcast_S50000_S50000x1_0
      (Host.divf (broadcastInDim Cert.ReferenceIdeal.S50000 ![] Cert.ReferenceIdeal.Gen.bcast_S_S50000 (constant Cert.ReferenceIdeal.S_ .f32 0x3F800000#32))
        (maximumf
          (Host.scatterAdd Cert.ReferenceIdeal.scatter_S50000_S800000x1_S800000_n_0_0_1
            (broadcastInDim Cert.ReferenceIdeal.S50000 ![] Cert.ReferenceIdeal.Gen.bcast_S_S50000 (constant Cert.ReferenceIdeal.S_ .f32 0x00000000#32))
            (broadcastInDim Cert.ReferenceIdeal.S800000x1 ![0] Cert.ReferenceIdeal.Gen.bcast_S800000_S800000x1_0 v3)
            (broadcastInDim Cert.ReferenceIdeal.S800000 ![] Cert.ReferenceIdeal.Gen.bcast_S_S800000 (constant Cert.ReferenceIdeal.S_ .f32 0x3F800000#32)))
          (broadcastInDim Cert.ReferenceIdeal.S50000 ![] Cert.ReferenceIdeal.Gen.bcast_S_S50000 (constant Cert.ReferenceIdeal.S_ .f32 0x3F800000#32))))
      = invCol v3 := by
  funext j
  refine (broadcastInDim_apply _ _ _ j (ix1 (j 0)) fun a => ?_).trans rfl
  match a with
  | ⟨0, _⟩ => rfl

/-- The reference's aggregate is the network's. -/
theorem ref_agg (h : FVec Ideal Cert.ReferenceIdeal.S50000x64 .f32) (v1 v3 : IVec Cert.ReferenceIdeal.S800000 32)
    (v12 : FVec Ideal Cert.ReferenceIdeal.S50000x1 .f32) :
    mulf
      (Host.scatterAdd Cert.ReferenceIdeal.scatter_S50000x64_S800000x1_S800000x64_1_0_0_1
        (broadcastInDim Cert.ReferenceIdeal.S50000x64 ![] Cert.ReferenceIdeal.Gen.bcast_S_S50000x64 (constant Cert.ReferenceIdeal.S_ .f32 0x00000000#32))
        (broadcastInDim Cert.ReferenceIdeal.S800000x1 ![0] Cert.ReferenceIdeal.Gen.bcast_S800000_S800000x1_0 v3)
        (Host.gather Cert.ReferenceIdeal.gather_S50000x64_S800000x1_S800000x64_1_0_n_n_0_1_164 h
          (broadcastInDim Cert.ReferenceIdeal.S800000x1 ![0] Cert.ReferenceIdeal.Gen.bcast_S800000_S800000x1_0
            (select (cmpi .slt v1 (broadcastInDim Cert.ReferenceIdeal.S800000 ![] Cert.ReferenceIdeal.Gen.bcast_S_S800000 (constantI Cert.ReferenceIdeal.S_ 32 0#32)))
              (addi v1 (broadcastInDim Cert.ReferenceIdeal.S800000 ![] Cert.ReferenceIdeal.Gen.bcast_S_S800000 (constantI Cert.ReferenceIdeal.S_ 32 50000#32))) v1))))
      (broadcastInDim Cert.ReferenceIdeal.S50000x64 ![0, 1] Cert.ReferenceIdeal.Gen.bcast_S50000x1_S50000x64_0_1 v12)
      = aggF h v1 v3 v12 := rfl

/-- A bias vector broadcast first to one row and then down the rows reads back the bias entry of the column. -/
theorem ref_bias (b : FVec Ideal Cert.ReferenceIdeal.S64 .f32) (j : Cert.ReferenceIdeal.S50000x64.Idx) :
    broadcastInDim Cert.ReferenceIdeal.S50000x64 ![0, 1] Cert.ReferenceIdeal.Gen.bcast_S1x64_S50000x64_0_1
      (broadcastInDim Cert.ReferenceIdeal.S1x64 ![1] Cert.ReferenceIdeal.Gen.bcast_S64_S1x64_1 b) j = biasOf b (j 1) := by
  refine (broadcastInDim_apply _ _ _ j (ix2 (0 : Fin 1) (j 1)) fun a => ?_).trans ?_
  · match a with
    | ⟨0, _⟩ => rfl
    | ⟨1, _⟩ => rfl
  · refine (broadcastInDim_apply _ _ _ _ (ix1 (j 1)) fun a => ?_).trans rfl
    match a with
    | ⟨0, _⟩ => rfl

open scoped BigOperators in
/-- The reference's layer — the two products, the bias broadcast, the rectifier as a select — is the network's layer. -/
theorem ref_layer (agg h : FVec Ideal Cert.ReferenceIdeal.S50000x64 .f32) (Wl Wr : FVec Ideal Cert.ReferenceIdeal.S64x64 .f32)
    (b : FVec Ideal Cert.ReferenceIdeal.S64 .f32) :
    select
      (cmpf .oge
        (addf
          (addf (Host.dotGeneral Cert.ReferenceIdeal.dot_S50000x64_S64x64_S50000x64_1_0_0_1_n_n none agg Wl)
            (broadcastInDim Cert.ReferenceIdeal.S50000x64 ![0, 1] Cert.ReferenceIdeal.Gen.bcast_S1x64_S50000x64_0_1
              (broadcastInDim Cert.ReferenceIdeal.S1x64 ![1] Cert.ReferenceIdeal.Gen.bcast_S64_S1x64_1 b)))
          (Host.dotGeneral Cert.ReferenceIdeal.dot_S50000x64_S64x64_S50000x64_1_0_0_1_n_n none h Wr))
        (broadcastInDim Cert.ReferenceIdeal.S50000x64 ![] Cert.ReferenceIdeal.Gen.bcast_S_S50000x64 (constant Cert.ReferenceIdeal.S_ .f32 0x00000000#32)))
      (addf
        (addf (Host.dotGeneral Cert.ReferenceIdeal.dot_S50000x64_S64x64_S50000x64_1_0_0_1_n_n none agg Wl)
          (broadcastInDim Cert.ReferenceIdeal.S50000x64 ![0, 1] Cert.ReferenceIdeal.Gen.bcast_S1x64_S50000x64_0_1
            (broadcastInDim Cert.ReferenceIdeal.S1x64 ![1] Cert.ReferenceIdeal.Gen.bcast_S64_S1x64_1 b)))
        (Host.dotGeneral Cert.ReferenceIdeal.dot_S50000x64_S64x64_S50000x64_1_0_0_1_n_n none h Wr))
      (mulf
        (broadcastInDim Cert.ReferenceIdeal.S50000x64 ![] Cert.ReferenceIdeal.Gen.bcast_S_S50000x64 (constant Cert.ReferenceIdeal.S_ .f32 0x3C23D70A#32))
        (addf
          (addf (Host.dotGeneral Cert.ReferenceIdeal.dot_S50000x64_S64x64_S50000x64_1_0_0_1_n_n none agg Wl)
            (broadcastInDim Cert.ReferenceIdeal.S50000x64 ![0, 1] Cert.ReferenceIdeal.Gen.bcast_S1x64_S50000x64_0_1
              (broadcastInDim Cert.ReferenceIdeal.S1x64 ![1] Cert.ReferenceIdeal.Gen.bcast_S64_S1x64_1 b)))
          (Host.dotGeneral Cert.ReferenceIdeal.dot_S50000x64_S64x64_S50000x64_1_0_0_1_n_n none h Wr)))
      = layerAt agg h Wl Wr (biasOf b) := by
  funext j
  have hz : addf
        (addf (Host.dotGeneral Cert.ReferenceIdeal.dot_S50000x64_S64x64_S50000x64_1_0_0_1_n_n none agg Wl)
          (broadcastInDim Cert.ReferenceIdeal.S50000x64 ![0, 1] Cert.ReferenceIdeal.Gen.bcast_S1x64_S50000x64_0_1
            (broadcastInDim Cert.ReferenceIdeal.S1x64 ![1] Cert.ReferenceIdeal.Gen.bcast_S64_S1x64_1 b)))
        (Host.dotGeneral Cert.ReferenceIdeal.dot_S50000x64_S64x64_S50000x64_1_0_0_1_n_n none h Wr) j
      = (∑ k : Fin 64, agg (ix2 (j 0) k) * Wl (ix2 k (j 1)) + biasOf b (j 1)) + ∑ k : Fin 64, h (ix2 (j 0) k) * Wr (ix2 k (j 1)) := by
    rw [addf_apply, addf_apply, ref_bias]
    simp only [Host.dotGeneral]
    rw [Ideal.dotGeneral_apply, Ideal.dotGeneral_apply, dotLayer_eq]
    rw [plain_sum agg Wl j, plain_sum h Wr j]
  show lrelu _ = lrelu _
  exact congrArg lrelu hz

/-- The one bias broadcast to one entry and then down the column reads back that bias. -/
theorem ref_biasOut (bo : FVec Ideal Cert.ReferenceIdeal.S1 .f32) (j : Cert.ReferenceIdeal.S50000x1.Idx) :
    broadcastInDim Cert.ReferenceIdeal.S50000x1 ![0, 1] Cert.ReferenceIdeal.Gen.bcast_S1x1_S50000x1_0_1
      (broadcastInDim Cert.ReferenceIdeal.S1x1 ![1] Cert.ReferenceIdeal.Gen.bcast_S1_S1x1_1 bo) j = bo (ix1 0) := by
  refine (broadcastInDim_apply _ _ _ j (ix2 (0 : Fin 1) (0 : Fin 1)) fun a => ?_).trans ?_
  · match a with
    | ⟨0, _⟩ => rfl
    | ⟨1, _⟩ => rfl
  · refine (broadcastInDim_apply _ _ _ _ (ix1 (0 : Fin 1)) fun a => ?_).trans rfl
    match a with
    | ⟨0, _⟩ => rfl

/-- The reference's closing product, bias and flattening of the one column is the network's projection. -/
theorem ref_proj (h : FVec Ideal Cert.ReferenceIdeal.S50000x64 .f32) (Wo : FVec Ideal Cert.ReferenceIdeal.S64x1 .f32)
    (bo : FVec Ideal Cert.ReferenceIdeal.S1 .f32) :
    ((fun i => shapeCast Cert.ReferenceIdeal.main_v74.ty.shape
        (addf (Host.dotGeneral Cert.ReferenceIdeal.dot_S50000x64_S64x1_S50000x1_1_0_0_1_n_n none h Wo)
          (broadcastInDim Cert.ReferenceIdeal.S50000x1 ![0, 1] Cert.ReferenceIdeal.Gen.bcast_S1x1_S50000x1_0_1
            (broadcastInDim Cert.ReferenceIdeal.S1x1 ![1] Cert.ReferenceIdeal.Gen.bcast_S1_S1x1_1 bo)))
        Cert.ReferenceIdeal.Gen.shapeCasts_S50000x1_S50000 i) : Cert.ReferenceIdeal.S50000.Idx → EReal)
      = fun i => projAt h Wo (bo (ix1 0)) (ix2 (i 0) 0) := by
  funext i
  show shapeCast Cert.ReferenceIdeal.S50000 _ Cert.ReferenceIdeal.Gen.shapeCasts_S50000x1_S50000 i = _
  refine (shapeCast_apply _ _ i (ix2 (n0 := 50000) (n1 := 1) (i 0) 0) ?_).trans ?_
  · rw [Shape.rowMajor_val_two, Shape.rowMajor_val_one]
    show (i 0).val * 1 + 0 = (i 0).val
    omega
  · show addf _ _ (ix2 (n0 := 50000) (n1 := 1) (i 0) 0) = _
    rw [addf_apply, ref_biasOut]
    simp only [Host.dotGeneral]
    rw [Ideal.dotGeneral_apply, dotProj_eq, plain_sum h Wo (ix2 (n0 := 50000) (n1 := 1) (i 0) 0)]
    rfl

/-! ### The reference's operations in stretches -/

/-- The fold of a concatenation is the fold of the second list from the first list's fold. -/
theorem after_append {τ : Topo} {sig : RefSig} {Val : EltTy → Type} (a b : List (HloOp τ sig Val)) (W : Valuation τ sig Val) :
    after (a ++ b) W = after b (after a W) := by
  induction a generalizing W with
  | nil => rfl
  | cons op a ih => exact ih _

section Stretches

open Cert.ReferenceIdeal Cert.ReferenceIdeal.Gen

variable {F : FTy → Type} [FloatOps F]

/-- The edge list's two rows and the column of reciprocal degrees. -/
abbrev r0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (maximumf : (⟨S50000, .f32⟩ : BufTy).Contents (Elt F) → (⟨S50000, .f32⟩ : BufTy).Contents (Elt F) → (⟨S50000, .f32⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v10 main_v9 main_v11 (Host.divf : (⟨S50000, .f32⟩ : BufTy).Contents (Elt F) → (⟨S50000, .f32⟩ : BufTy).Contents (Elt F) → (⟨S50000, .f32⟩ : BufTy).Contents (Elt F)),
    unary main_v11 main_v12 (broadcastInDim S50000x1 ![0] bcast_S50000_S50000x1_0 : (⟨S50000, .f32⟩ : BufTy).Contents (Elt F) → (⟨S50000x1, .f32⟩ : BufTy).Contents (Elt F)) ]

/-- Layer 1 up to the rectifier's argument: the aggregate of the features, the two products, the bias. -/
abbrev r1a : List (HloOp τ sig (Elt F)) :=
  [ nullary main_c (constantI S_ 32 0#32),
    unary main_c main_v13 (broadcastInDim S800000 ![] bcast_S_S800000 : (⟨S_, .i32⟩ : BufTy).Contents (Elt F) → (⟨S800000, .i32⟩ : BufTy).Contents (Elt F)),
    binary main_v1 main_v13 main_v14 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v15 (broadcastInDim S800000 ![] bcast_S_S800000 : (⟨S_, .i32⟩ : BufTy).Contents (Elt F) → (⟨S800000, .i32⟩ : BufTy).Contents (Elt F)),
    binary main_v1 main_v15 main_v16 (addi : (⟨S800000, .i32⟩ : BufTy).Contents (Elt F) → (⟨S800000, .i32⟩ : BufTy).Contents (Elt F) → (⟨S800000, .i32⟩ : BufTy).Contents (Elt F)),
    ternary main_v14 main_v16 main_v1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v17 main_v18 (broadcastInDim S800000x1 ![0] bcast_S800000_S800000x1_0 : (⟨S800000, .i32⟩ : BufTy).Contents (Elt F) → (⟨S800000x1, .i32⟩ : BufTy).Contents (Elt F)),
    binary main_arg0 main_v18 main_v19 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_4 (constant S_ .f32 0x00000000#32),
    unary main_cst_4 main_v20 (broadcastInDim S50000x64 ![] bcast_S_S50000x64 : (⟨S_, .f32⟩ : BufTy).Contents (Elt F) → (⟨S50000x64, .f32⟩ : BufTy).Contents (Elt F)),
    unary main_v3 main_v21 (broadcastInDim S800000x1 ![0] bcast_S800000_S800000x1_0 : (⟨S800000, .i32⟩ : BufTy).Contents (Elt F) → (⟨S800000x1, .i32⟩ : BufTy).Contents (Elt F)),
    ternary main_v20 main_v21 main_v19 main_v22 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v12 main_v23 (broadcastInDim S50000x64 ![0, 1] bcast_S50000x1_S50000x64_0_1 : (⟨S50000x1, .f32⟩ : BufTy).Contents (Elt F) → (⟨S50000x64, .f32⟩ : BufTy).Contents (Elt F)),
    binary main_v22 main_v23 main_v24 (mulf : (⟨S50000x64, .f32⟩ : BufTy).Contents (Elt F) → (⟨S50000x64, .f32⟩ : BufTy).Contents (Elt F) → (⟨S50000x64, .f32⟩ : BufTy).Contents (Elt F)),
    binary main_v24 main_arg2 main_v25 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg3 main_v26 (broadcastInDim S1x64 ![1] bcast_S64_S1x64_1 : (⟨S64, .f32⟩ : BufTy).Contents (Elt F) → (⟨S1x64, .f32⟩ : BufTy).Contents (Elt F)),
    unary main_v26 main_v27 (broadcastInDim S50000x64 ![0, 1] bcast_S1x64_S50000x64_0_1 : (⟨S1x64, .f32⟩ : BufTy).Contents (Elt F) → (⟨S50000x64, .f32⟩ : BufTy).Contents (Elt F)),
    binary main_v25 main_v27 main_v28 (addf : (⟨S50000x64, .f32⟩ : BufTy).Contents (Elt F) → (⟨S50000x64, .f32⟩ : BufTy).Contents (Elt F) → (⟨S50000x64, .f32⟩ : BufTy).Contents (Elt F)),
    binary main_arg0 main_arg4 main_v29 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v28 main_v29 main_v30 (addf : (⟨S50000x64, .f32⟩ : BufTy).Contents (Elt F) → (⟨S50000x64, .f32⟩ : BufTy).Contents (Elt F) → (⟨S50000x64, .f32⟩ : BufTy).Contents (Elt F)) ]

/-- Layer 1's rectifier: the slope, and the function's six operations and select over the call's own buffers. -/
abbrev r1b : List (HloOp τ sig (Elt F)) :=
  [ nullary main_cst_5 (constant S_ .f32 0x3C23D70A#32),
    TRef.nullary main_call0.cst (constant S_ .f32 0x00000000#32),
    TRef.unary main_call0.cst main_call0.v0 (broadcastInDim S50000x64 ![] bcast_S_S50000x64),
    TRef.binary (.of main_v30) main_call0.v0 main_call0.v1 (cmpf .oge),
    TRef.unary (.of main_cst_5) main_call0.v2 id,
    TRef.unary main_call0.v2 main_call0.v3 (broadcastInDim S50000x64 ![] bcast_S_S50000x64),
    TRef.binary main_call0.v3 (.of main_v30) main_call0.v4 mulf,
    TRef.ternary main_call0.v1 (.of main_v30) main_call0.v4 main_call0.call0.v0 select ]

/-- Layer 2 up to the rectifier's argument: the aggregate of the features, the two products, the bias. -/
abbrev r2a : List (HloOp τ sig (Elt F)) :=
  [ nullary main_c_6 (constantI S_ 32 0#32),
    unary main_c_6 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v31 main_v37 main_v38 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_8 (constant S_ .f32 0x00000000#32),
    unary main_cst_8 main_v39 (broadcastInDim S50000x64 ![] bcast_S_S50000x64 : (⟨S_, .f32⟩ : BufTy).Contents (Elt F) → (⟨S50000x64, .f32⟩ : BufTy).Contents (Elt F)),
    unary main_v3 main_v40 (broadcastInDim S800000x1 ![0] bcast_S800000_S800000x1_0 : (⟨S800000, .i32⟩ : BufTy).Contents (Elt F) → (⟨S800000x1, .i32⟩ : BufTy).Contents (Elt F)),
    ternary main_v39 main_v40 main_v38 main_v41 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v12 main_v42 (broadcastInDim S50000x64 ![0, 1] bcast_S50000x1_S50000x64_0_1 : (⟨S50000x1, .f32⟩ : BufTy).Contents (Elt F) → (⟨S50000x64, .f32⟩ : BufTy).Contents (Elt F)),
    binary main_v41 main_v42 main_v43 (mulf : (⟨S50000x64, .f32⟩ : BufTy).Contents (Elt F) → (⟨S50000x64, .f32⟩ : BufTy).Contents (Elt F) → (⟨S50000x64, .f32⟩ : BufTy).Contents (Elt F)),
    binary main_v43 main_arg5 main_v44 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v45 (broadcastInDim S1x64 ![1] bcast_S64_S1x64_1 : (⟨S64, .f32⟩ : BufTy).Contents (Elt F) → (⟨S1x64, .f32⟩ : BufTy).Contents (Elt F)),
    unary main_v45 main_v46 (broadcastInDim S50000x64 ![0, 1] bcast_S1x64_S50000x64_0_1 : (⟨S1x64, .f32⟩ : BufTy).Contents (Elt F) → (⟨S50000x64, .f32⟩ : BufTy).Contents (Elt F)),
    binary main_v44 main_v46 main_v47 (addf : (⟨S50000x64, .f32⟩ : BufTy).Contents (Elt F) → (⟨S50000x64, .f32⟩ : BufTy).Contents (Elt F) → (⟨S50000x64, .f32⟩ : BufTy).Contents (Elt F)),
    binary main_v31 main_arg7 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v47 main_v48 main_v49 (addf : (⟨S50000x64, .f32⟩ : BufTy).Contents (Elt F) → (⟨S50000x64, .f32⟩ : BufTy).Contents (Elt F) → (⟨S50000x64, .f32⟩ : BufTy).Contents (Elt F)) ]

/-- Layer 2's rectifier: the slope, and the function's six operations and select over the call's own buffers. -/
abbrev r2b : List (HloOp τ sig (Elt F)) :=
  [ nullary main_cst_9 (constant S_ .f32 0x3C23D70A#32),
    TRef.nullary main_call1.cst (constant S_ .f32 0x00000000#32),
    TRef.unary main_call1.cst main_call1.v0 (broadcastInDim S50000x64 ![] bcast_S_S50000x64),
    TRef.binary (.of main_v49) main_call1.v0 main_call1.v1 (cmpf .oge),
    TRef.unary (.of main_cst_9) main_call1.v2 id,
    TRef.unary main_call1.v2 main_call1.v3 (broadcastInDim S50000x64 ![] bcast_S_S50000x64),
    TRef.binary main_call1.v3 (.of main_v49) main_call1.v4 mulf,
    TRef.ternary main_call1.v1 (.of main_v49) main_call1.v4 main_call1.call0.v0 select ]

/-- Layer 3 up to the rectifier's argument: the aggregate of the features, the two products, the bias. -/
abbrev r3a : List (HloOp τ sig (Elt F)) :=
  [ nullary main_c_10 (constantI S_ 32 0#32),
    unary main_c_10 main_v51 (broadcastInDim S800000 ![] bcast_S_S800000 : (⟨S_, .i32⟩ : BufTy).Contents (Elt F) → (⟨S800000, .i32⟩ : BufTy).Contents (Elt F)),
    binary main_v1 main_v51 main_v52 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v53 (broadcastInDim S800000 ![] bcast_S_S800000 : (⟨S_, .i32⟩ : BufTy).Contents (Elt F) → (⟨S800000, .i32⟩ : BufTy).Contents (Elt F)),
    binary main_v1 main_v53 main_v54 (addi : (⟨S800000, .i32⟩ : BufTy).Contents (Elt F) → (⟨S800000, .i32⟩ : BufTy).Contents (Elt F) → (⟨S800000, .i32⟩ : BufTy).Contents (Elt F)),
    ternary main_v52 main_v54 main_v1 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v55 main_v56 (broadcastInDim S800000x1 ![0] bcast_S800000_S800000x1_0 : (⟨S800000, .i32⟩ : BufTy).Contents (Elt F) → (⟨S800000x1, .i32⟩ : BufTy).Contents (Elt F)),
    binary main_v50 main_v56 main_v57 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_12 (constant S_ .f32 0x00000000#32),
    unary main_cst_12 main_v58 (broadcastInDim S50000x64 ![] bcast_S_S50000x64 : (⟨S_, .f32⟩ : BufTy).Contents (Elt F) → (⟨S50000x64, .f32⟩ : BufTy).Contents (Elt F)),
    unary main_v3 main_v59 (broadcastInDim S800000x1 ![0] bcast_S800000_S800000x1_0 : (⟨S800000, .i32⟩ : BufTy).Contents (Elt F) → (⟨S800000x1, .i32⟩ : BufTy).Contents (Elt F)),
    ternary main_v58 main_v59 main_v57 main_v60 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_v12 main_v61 (broadcastInDim S50000x64 ![0, 1] bcast_S50000x1_S50000x64_0_1 : (⟨S50000x1, .f32⟩ : BufTy).Contents (Elt F) → (⟨S50000x64, .f32⟩ : BufTy).Contents (Elt F)),
    binary main_v60 main_v61 main_v62 (mulf : (⟨S50000x64, .f32⟩ : BufTy).Contents (Elt F) → (⟨S50000x64, .f32⟩ : BufTy).Contents (Elt F) → (⟨S50000x64, .f32⟩ : BufTy).Contents (Elt F)),
    binary main_v62 main_arg8 main_v63 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v64 (broadcastInDim S1x64 ![1] bcast_S64_S1x64_1 : (⟨S64, .f32⟩ : BufTy).Contents (Elt F) → (⟨S1x64, .f32⟩ : BufTy).Contents (Elt F)),
    unary main_v64 main_v65 (broadcastInDim S50000x64 ![0, 1] bcast_S1x64_S50000x64_0_1 : (⟨S1x64, .f32⟩ : BufTy).Contents (Elt F) → (⟨S50000x64, .f32⟩ : BufTy).Contents (Elt F)),
    binary main_v63 main_v65 main_v66 (addf : (⟨S50000x64, .f32⟩ : BufTy).Contents (Elt F) → (⟨S50000x64, .f32⟩ : BufTy).Contents (Elt F) → (⟨S50000x64, .f32⟩ : BufTy).Contents (Elt F)),
    binary main_v50 main_arg10 main_v67 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v66 main_v67 main_v68 (addf : (⟨S50000x64, .f32⟩ : BufTy).Contents (Elt F) → (⟨S50000x64, .f32⟩ : BufTy).Contents (Elt F) → (⟨S50000x64, .f32⟩ : BufTy).Contents (Elt F)) ]

/-- Layer 3's rectifier: the slope, and the function's six operations and select over the call's own buffers. -/
abbrev r3b : List (HloOp τ sig (Elt F)) :=
  [ nullary main_cst_13 (constant S_ .f32 0x3C23D70A#32),
    TRef.nullary main_call2.cst (constant S_ .f32 0x00000000#32),
    TRef.unary main_call2.cst main_call2.v0 (broadcastInDim S50000x64 ![] bcast_S_S50000x64),
    TRef.binary (.of main_v68) main_call2.v0 main_call2.v1 (cmpf .oge),
    TRef.unary (.of main_cst_13) main_call2.v2 id,
    TRef.unary main_call2.v2 main_call2.v3 (broadcastInDim S50000x64 ![] bcast_S_S50000x64),
    TRef.binary main_call2.v3 (.of main_v68) main_call2.v4 mulf,
    TRef.ternary main_call2.v1 (.of main_v68) main_call2.v4 main_call2.call0.v0 select ]

/-- The projection onto one column and its flattening. -/
abbrev r4 : List (HloOp τ sig (Elt F)) :=
  [ binary main_v69 main_arg11 main_v70 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    unary main_arg12 main_v71 (broadcastInDim S1x1 ![1] bcast_S1_S1x1_1 : (⟨S1, .f32⟩ : BufTy).Contents (Elt F) → (⟨S1x1, .f32⟩ : BufTy).Contents (Elt F)),
    unary main_v71 main_v72 (broadcastInDim S50000x1 ![0, 1] bcast_S1x1_S50000x1_0_1 : (⟨S1x1, .f32⟩ : BufTy).Contents (Elt F) → (⟨S50000x1, .f32⟩ : BufTy).Contents (Elt F)),
    binary main_v70 main_v72 main_v73 (addf : (⟨S50000x1, .f32⟩ : BufTy).Contents (Elt F) → (⟨S50000x1, .f32⟩ : BufTy).Contents (Elt F) → (⟨S50000x1, .f32⟩ : BufTy).Contents (Elt F)),
    reshape main_v73 main_v74 rfl shapeCasts_S50000x1_S50000 ]

/-- The reference's operations are those stretches in order. -/
theorem ops_split : RRun.ops (F := F) = r0 ++ (r1a ++ (r1b ++ (r2a ++ (r2b ++ (r3a ++ (r3b ++ r4)))))) := rfl

end Stretches

/- From here on the host gather and scatter-sum are opaque: the stretches are read by the lemmas above. -/
attribute [local irreducible] Host.gather Host.scatterAdd

section Reads

variable (U : Valuation Cert.ReferenceIdeal.τ Cert.ReferenceIdeal.sig (Elt Ideal))

/-- The buffers every later stretch leaves alone: the arguments, the two edge rows and the reciprocal degrees. -/
abbrev keepAll : List (Ref Cert.ReferenceIdeal.sig .tc) :=
  [Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6, Cert.ReferenceIdeal.main_arg7, Cert.ReferenceIdeal.main_arg8, Cert.ReferenceIdeal.main_arg9, Cert.ReferenceIdeal.main_arg10, Cert.ReferenceIdeal.main_arg11, Cert.ReferenceIdeal.main_arg12,
   Cert.ReferenceIdeal.main_v1, Cert.ReferenceIdeal.main_v3, Cert.ReferenceIdeal.main_v12]

/-- The arguments. -/
abbrev argRefs : List (Ref Cert.ReferenceIdeal.sig .tc) :=
  [Cert.ReferenceIdeal.main_arg0, Cert.ReferenceIdeal.main_arg1, Cert.ReferenceIdeal.main_arg2, Cert.ReferenceIdeal.main_arg3, Cert.ReferenceIdeal.main_arg4, Cert.ReferenceIdeal.main_arg5, Cert.ReferenceIdeal.main_arg6, Cert.ReferenceIdeal.main_arg7, Cert.ReferenceIdeal.main_arg8, Cert.ReferenceIdeal.main_arg9, Cert.ReferenceIdeal.main_arg10, Cert.ReferenceIdeal.main_arg11, Cert.ReferenceIdeal.main_arg12]

/-! #### The first stretch -/

theorem p0_v1 : after (r0 (F := Ideal)) U (Proc.devRef .tc Cert.ReferenceIdeal.main_v1) = srcRow (U (Proc.devRef .tc Cert.ReferenceIdeal.main_arg1)) := by
  after_results_simp
  rfl

theorem p0_v3 : after (r0 (F := Ideal)) U (Proc.devRef .tc Cert.ReferenceIdeal.main_v3) = dstRow (U (Proc.devRef .tc Cert.ReferenceIdeal.main_arg1)) := by
  after_results_simp
  rfl

theorem p0_v12 : after (r0 (F := Ideal)) U (Proc.devRef .tc Cert.ReferenceIdeal.main_v12) = invCol (dstRow (U (Proc.devRef .tc Cert.ReferenceIdeal.main_arg1))) := by
  after_results_simp
  exact ref_invCol _

theorem p0_keep (b : Ref Cert.ReferenceIdeal.sig .tc) (hb : b ∈ argRefs) : after (r0 (F := Ideal)) U (Proc.devRef .tc b) = U (Proc.devRef .tc b) := by
  refine after_of_forall_not_mem _ _ (List.forall_iff_forall_mem.mp ?_)
  simp only [r0, List.cons_append, List.nil_append, List.Forall, nullary_writes, unary_writes, binary_writes, ternary_writes, reshape_writes,
    Finset.mem_singleton]
  repeat' apply And.intro
  all_goals exact devRef_ne_of_ne (by revert b; decide)

/-! #### Layer 1 -/

theorem p1a_out : after (r1a (F := Ideal)) U (Proc.devRef .tc Cert.ReferenceIdeal.main_v30)
    = addf
        (addf (Host.dotGeneral (φ₁ := .f32) (φ₂ := .f32) Cert.ReferenceIdeal.dot_S50000x64_S64x64_S50000x64_1_0_0_1_n_n none (aggF (U (Proc.devRef .tc Cert.ReferenceIdeal.main_arg0)) (U (Proc.devRef .tc Cert.ReferenceIdeal.main_v1)) (U (Proc.devRef .tc Cert.ReferenceIdeal.main_v3)) (U (Proc.devRef .tc Cert.ReferenceIdeal.main_v12))) (U (Proc.devRef .tc Cert.ReferenceIdeal.main_arg2)))
          (broadcastInDim Cert.ReferenceIdeal.S50000x64 ![0, 1] Cert.ReferenceIdeal.Gen.bcast_S1x64_S50000x64_0_1
            (broadcastInDim Cert.ReferenceIdeal.S1x64 ![1] Cert.ReferenceIdeal.Gen.bcast_S64_S1x64_1 (U (Proc.devRef .tc Cert.ReferenceIdeal.main_arg3)))))
        (Host.dotGeneral (φ₁ := .f32) (φ₂ := .f32) Cert.ReferenceIdeal.dot_S50000x64_S64x64_S50000x64_1_0_0_1_n_n none (U (Proc.devRef .tc Cert.ReferenceIdeal.main_arg0)) (U (Proc.devRef .tc Cert.ReferenceIdeal.main_arg4))) := by
  after_results_simp
  rw [ref_agg]

theorem p1b_out (z : FVec Ideal Cert.ReferenceIdeal.S50000x64 .f32) (hz : U (Proc.devRef .tc Cert.ReferenceIdeal.main_v30) = z) :
    after (r1b (F := Ideal)) U (Proc.devRef .tc Cert.ReferenceIdeal.main_v31)
      = select (cmpf .oge z (broadcastInDim Cert.ReferenceIdeal.S50000x64 ![] Cert.ReferenceIdeal.Gen.bcast_S_S50000x64 (constant Cert.ReferenceIdeal.S_ .f32 0x00000000#32))) z
          (mulf (broadcastInDim Cert.ReferenceIdeal.S50000x64 ![] Cert.ReferenceIdeal.Gen.bcast_S_S50000x64 (constant Cert.ReferenceIdeal.S_ .f32 0x3C23D70A#32)) z) := by
  subst hz
  after_results_simp
  simp only [TRef.toBuf, TRef.ofBuf, cast_cast, cast_eq, id_eq]

/-- Layer 1's result buffer after its stretch, from any contents. -/
theorem p1_out : (after (r1b (F := Ideal)) (after (r1a (F := Ideal)) U) (Proc.devRef .tc Cert.ReferenceIdeal.main_v31) : Cert.ReferenceIdeal.S50000x64.Idx → EReal)
    = layerAt (aggF (U (Proc.devRef .tc Cert.ReferenceIdeal.main_arg0)) (U (Proc.devRef .tc Cert.ReferenceIdeal.main_v1)) (U (Proc.devRef .tc Cert.ReferenceIdeal.main_v3)) (U (Proc.devRef .tc Cert.ReferenceIdeal.main_v12))) (U (Proc.devRef .tc Cert.ReferenceIdeal.main_arg0)) (U (Proc.devRef .tc Cert.ReferenceIdeal.main_arg2)) (U (Proc.devRef .tc Cert.ReferenceIdeal.main_arg4)) (biasOf (U (Proc.devRef .tc Cert.ReferenceIdeal.main_arg3))) :=
  (p1b_out (after (r1a (F := Ideal)) U) _ (p1a_out U)).trans (ref_layer _ _ _ _ _)

theorem p1_keep (b : Ref Cert.ReferenceIdeal.sig .tc) (hb : b ∈ keepAll) :
    after (r1b (F := Ideal)) (after (r1a (F := Ideal)) U) (Proc.devRef .tc b) = U (Proc.devRef .tc b) := by
  rw [← after_append]
  refine after_of_forall_not_mem _ _ (List.forall_iff_forall_mem.mp ?_)
  simp only [r1a, r1b, List.cons_append, List.nil_append, List.Forall, nullary_writes, unary_writes, binary_writes, ternary_writes, reshape_writes,
    Finset.mem_singleton]
  repeat' apply And.intro
  all_goals exact devRef_ne_of_ne (by revert b; decide)

/-! #### Layer 2 -/

theorem p2a_out : after (r2a (F := Ideal)) U (Proc.devRef .tc Cert.ReferenceIdeal.main_v49)
    = addf
        (addf (Host.dotGeneral (φ₁ := .f32) (φ₂ := .f32) Cert.ReferenceIdeal.dot_S50000x64_S64x64_S50000x64_1_0_0_1_n_n none (aggF (U (Proc.devRef .tc Cert.ReferenceIdeal.main_v31)) (U (Proc.devRef .tc Cert.ReferenceIdeal.main_v1)) (U (Proc.devRef .tc Cert.ReferenceIdeal.main_v3)) (U (Proc.devRef .tc Cert.ReferenceIdeal.main_v12))) (U (Proc.devRef .tc Cert.ReferenceIdeal.main_arg5)))
          (broadcastInDim Cert.ReferenceIdeal.S50000x64 ![0, 1] Cert.ReferenceIdeal.Gen.bcast_S1x64_S50000x64_0_1
            (broadcastInDim Cert.ReferenceIdeal.S1x64 ![1] Cert.ReferenceIdeal.Gen.bcast_S64_S1x64_1 (U (Proc.devRef .tc Cert.ReferenceIdeal.main_arg6)))))
        (Host.dotGeneral (φ₁ := .f32) (φ₂ := .f32) Cert.ReferenceIdeal.dot_S50000x64_S64x64_S50000x64_1_0_0_1_n_n none (U (Proc.devRef .tc Cert.ReferenceIdeal.main_v31)) (U (Proc.devRef .tc Cert.ReferenceIdeal.main_arg7))) := by
  after_results_simp
  rw [ref_agg]

theorem p2b_out (z : FVec Ideal Cert.ReferenceIdeal.S50000x64 .f32) (hz : U (Proc.devRef .tc Cert.ReferenceIdeal.main_v49) = z) :
    after (r2b (F := Ideal)) U (Proc.devRef .tc Cert.ReferenceIdeal.main_v50)
      = select (cmpf .oge z (broadcastInDim Cert.ReferenceIdeal.S50000x64 ![] Cert.ReferenceIdeal.Gen.bcast_S_S50000x64 (constant Cert.ReferenceIdeal.S_ .f32 0x00000000#32))) z
          (mulf (broadcastInDim Cert.ReferenceIdeal.S50000x64 ![] Cert.ReferenceIdeal.Gen.bcast_S_S50000x64 (constant Cert.ReferenceIdeal.S_ .f32 0x3C23D70A#32)) z) := by
  subst hz
  after_results_simp
  simp only [TRef.toBuf, TRef.ofBuf, cast_cast, cast_eq, id_eq]

/-- Layer 2's result buffer after its stretch, from any contents. -/
theorem p2_out : (after (r2b (F := Ideal)) (after (r2a (F := Ideal)) U) (Proc.devRef .tc Cert.ReferenceIdeal.main_v50) : Cert.ReferenceIdeal.S50000x64.Idx → EReal)
    = layerAt (aggF (U (Proc.devRef .tc Cert.ReferenceIdeal.main_v31)) (U (Proc.devRef .tc Cert.ReferenceIdeal.main_v1)) (U (Proc.devRef .tc Cert.ReferenceIdeal.main_v3)) (U (Proc.devRef .tc Cert.ReferenceIdeal.main_v12))) (U (Proc.devRef .tc Cert.ReferenceIdeal.main_v31)) (U (Proc.devRef .tc Cert.ReferenceIdeal.main_arg5)) (U (Proc.devRef .tc Cert.ReferenceIdeal.main_arg7)) (biasOf (U (Proc.devRef .tc Cert.ReferenceIdeal.main_arg6))) :=
  (p2b_out (after (r2a (F := Ideal)) U) _ (p2a_out U)).trans (ref_layer _ _ _ _ _)

theorem p2_keep (b : Ref Cert.ReferenceIdeal.sig .tc) (hb : b ∈ keepAll) :
    after (r2b (F := Ideal)) (after (r2a (F := Ideal)) U) (Proc.devRef .tc b) = U (Proc.devRef .tc b) := by
  rw [← after_append]
  refine after_of_forall_not_mem _ _ (List.forall_iff_forall_mem.mp ?_)
  simp only [r2a, r2b, List.cons_append, List.nil_append, List.Forall, nullary_writes, unary_writes, binary_writes, ternary_writes, reshape_writes,
    Finset.mem_singleton]
  repeat' apply And.intro
  all_goals exact devRef_ne_of_ne (by revert b; decide)

/-! #### Layer 3 -/

theorem p3a_out : after (r3a (F := Ideal)) U (Proc.devRef .tc Cert.ReferenceIdeal.main_v68)
    = addf
        (addf (Host.dotGeneral (φ₁ := .f32) (φ₂ := .f32) Cert.ReferenceIdeal.dot_S50000x64_S64x64_S50000x64_1_0_0_1_n_n none (aggF (U (Proc.devRef .tc Cert.ReferenceIdeal.main_v50)) (U (Proc.devRef .tc Cert.ReferenceIdeal.main_v1)) (U (Proc.devRef .tc Cert.ReferenceIdeal.main_v3)) (U (Proc.devRef .tc Cert.ReferenceIdeal.main_v12))) (U (Proc.devRef .tc Cert.ReferenceIdeal.main_arg8)))
          (broadcastInDim Cert.ReferenceIdeal.S50000x64 ![0, 1] Cert.ReferenceIdeal.Gen.bcast_S1x64_S50000x64_0_1
            (broadcastInDim Cert.ReferenceIdeal.S1x64 ![1] Cert.ReferenceIdeal.Gen.bcast_S64_S1x64_1 (U (Proc.devRef .tc Cert.ReferenceIdeal.main_arg9)))))
        (Host.dotGeneral (φ₁ := .f32) (φ₂ := .f32) Cert.ReferenceIdeal.dot_S50000x64_S64x64_S50000x64_1_0_0_1_n_n none (U (Proc.devRef .tc Cert.ReferenceIdeal.main_v50)) (U (Proc.devRef .tc Cert.ReferenceIdeal.main_arg10))) := by
  after_results_simp
  rw [ref_agg]

theorem p3b_out (z : FVec Ideal Cert.ReferenceIdeal.S50000x64 .f32) (hz : U (Proc.devRef .tc Cert.ReferenceIdeal.main_v68) = z) :
    after (r3b (F := Ideal)) U (Proc.devRef .tc Cert.ReferenceIdeal.main_v69)
      = select (cmpf .oge z (broadcastInDim Cert.ReferenceIdeal.S50000x64 ![] Cert.ReferenceIdeal.Gen.bcast_S_S50000x64 (constant Cert.ReferenceIdeal.S_ .f32 0x00000000#32))) z
          (mulf (broadcastInDim Cert.ReferenceIdeal.S50000x64 ![] Cert.ReferenceIdeal.Gen.bcast_S_S50000x64 (constant Cert.ReferenceIdeal.S_ .f32 0x3C23D70A#32)) z) := by
  subst hz
  after_results_simp
  simp only [TRef.toBuf, TRef.ofBuf, cast_cast, cast_eq, id_eq]

/-- Layer 3's result buffer after its stretch, from any contents. -/
theorem p3_out : (after (r3b (F := Ideal)) (after (r3a (F := Ideal)) U) (Proc.devRef .tc Cert.ReferenceIdeal.main_v69) : Cert.ReferenceIdeal.S50000x64.Idx → EReal)
    = layerAt (aggF (U (Proc.devRef .tc Cert.ReferenceIdeal.main_v50)) (U (Proc.devRef .tc Cert.ReferenceIdeal.main_v1)) (U (Proc.devRef .tc Cert.ReferenceIdeal.main_v3)) (U (Proc.devRef .tc Cert.ReferenceIdeal.main_v12))) (U (Proc.devRef .tc Cert.ReferenceIdeal.main_v50)) (U (Proc.devRef .tc Cert.ReferenceIdeal.main_arg8)) (U (Proc.devRef .tc Cert.ReferenceIdeal.main_arg10)) (biasOf (U (Proc.devRef .tc Cert.ReferenceIdeal.main_arg9))) :=
  (p3b_out (after (r3a (F := Ideal)) U) _ (p3a_out U)).trans (ref_layer _ _ _ _ _)

theorem p3_keep (b : Ref Cert.ReferenceIdeal.sig .tc) (hb : b ∈ keepAll) :
    after (r3b (F := Ideal)) (after (r3a (F := Ideal)) U) (Proc.devRef .tc b) = U (Proc.devRef .tc b) := by
  rw [← after_append]
  refine after_of_forall_not_mem _ _ (List.forall_iff_forall_mem.mp ?_)
  simp only [r3a, r3b, List.cons_append, List.nil_append, List.Forall, nullary_writes, unary_writes, binary_writes, ternary_writes, reshape_writes,
    Finset.mem_singleton]
  repeat' apply And.intro
  all_goals exact devRef_ne_of_ne (by revert b; decide)

/-! #### The last stretch -/

theorem p4_out : (after (r4 (F := Ideal)) U (Proc.devRef .tc Cert.ReferenceIdeal.main_v74) : Cert.ReferenceIdeal.S50000.Idx → EReal)
    = fun i => projAt (U (Proc.devRef .tc Cert.ReferenceIdeal.main_v69)) (U (Proc.devRef .tc Cert.ReferenceIdeal.main_arg11))
        (((U (Proc.devRef .tc Cert.ReferenceIdeal.main_arg12)) : Cert.ReferenceIdeal.S1.Idx → EReal) (ix1 0)) (ix2 (i 0) 0) := by
  after_results_simp
  exact ref_proj _ _ _

end Reads

section Compose

/-! ### The stretches chained from the launch contents -/

/-- The three layers' arrays as functions of the argument buffers. -/
def refH1 : FVec Ideal Cert.ReferenceIdeal.S50000x64 .f32 :=
  layerAt (M := 50000) (aggF (V (Proc.devRef .tc Cert.ReferenceIdeal.main_arg0)) (srcRow (V (Proc.devRef .tc Cert.ReferenceIdeal.main_arg1))) (dstRow (V (Proc.devRef .tc Cert.ReferenceIdeal.main_arg1))) (invCol (dstRow (V (Proc.devRef .tc Cert.ReferenceIdeal.main_arg1))))) (V (Proc.devRef .tc Cert.ReferenceIdeal.main_arg0)) (V (Proc.devRef .tc Cert.ReferenceIdeal.main_arg2)) (V (Proc.devRef .tc Cert.ReferenceIdeal.main_arg4)) (biasOf (V (Proc.devRef .tc Cert.ReferenceIdeal.main_arg3)))
def refH2 : FVec Ideal Cert.ReferenceIdeal.S50000x64 .f32 :=
  layerAt (M := 50000) (aggF (refH1 V) (srcRow (V (Proc.devRef .tc Cert.ReferenceIdeal.main_arg1))) (dstRow (V (Proc.devRef .tc Cert.ReferenceIdeal.main_arg1))) (invCol (dstRow (V (Proc.devRef .tc Cert.ReferenceIdeal.main_arg1))))) (refH1 V) (V (Proc.devRef .tc Cert.ReferenceIdeal.main_arg5)) (V (Proc.devRef .tc Cert.ReferenceIdeal.main_arg7)) (biasOf (V (Proc.devRef .tc Cert.ReferenceIdeal.main_arg6)))
def refH3 : FVec Ideal Cert.ReferenceIdeal.S50000x64 .f32 :=
  layerAt (M := 50000) (aggF (refH2 V) (srcRow (V (Proc.devRef .tc Cert.ReferenceIdeal.main_arg1))) (dstRow (V (Proc.devRef .tc Cert.ReferenceIdeal.main_arg1))) (invCol (dstRow (V (Proc.devRef .tc Cert.ReferenceIdeal.main_arg1))))) (refH2 V) (V (Proc.devRef .tc Cert.ReferenceIdeal.main_arg8)) (V (Proc.devRef .tc Cert.ReferenceIdeal.main_arg10)) (biasOf (V (Proc.devRef .tc Cert.ReferenceIdeal.main_arg9)))

/-- The buffers after the first stretch, and after each layer's. -/
abbrev S0 : Valuation Cert.ReferenceIdeal.τ Cert.ReferenceIdeal.sig (Elt Ideal) := after (r0 (F := Ideal)) V
abbrev S1 : Valuation Cert.ReferenceIdeal.τ Cert.ReferenceIdeal.sig (Elt Ideal) := after (r1b (F := Ideal)) (after (r1a (F := Ideal)) (S0 V))
abbrev S2 : Valuation Cert.ReferenceIdeal.τ Cert.ReferenceIdeal.sig (Elt Ideal) := after (r2b (F := Ideal)) (after (r2a (F := Ideal)) (S1 V))
abbrev S3 : Valuation Cert.ReferenceIdeal.τ Cert.ReferenceIdeal.sig (Elt Ideal) := after (r3b (F := Ideal)) (after (r3a (F := Ideal)) (S2 V))

theorem S0_arg (b : Ref Cert.ReferenceIdeal.sig .tc) (hb : b ∈ argRefs) : S0 V (Proc.devRef .tc b) = V (Proc.devRef .tc b) := p0_keep V b hb
theorem S0_v1 : S0 V (Proc.devRef .tc Cert.ReferenceIdeal.main_v1) = srcRow (V (Proc.devRef .tc Cert.ReferenceIdeal.main_arg1)) := p0_v1 V
theorem S0_v3 : S0 V (Proc.devRef .tc Cert.ReferenceIdeal.main_v3) = dstRow (V (Proc.devRef .tc Cert.ReferenceIdeal.main_arg1)) := p0_v3 V
theorem S0_v12 : S0 V (Proc.devRef .tc Cert.ReferenceIdeal.main_v12) = invCol (dstRow (V (Proc.devRef .tc Cert.ReferenceIdeal.main_arg1))) := p0_v12 V

theorem S1_arg (b : Ref Cert.ReferenceIdeal.sig .tc) (hk : b ∈ keepAll) (hb : b ∈ argRefs) : S1 V (Proc.devRef .tc b) = V (Proc.devRef .tc b) :=
  (p1_keep (S0 V) b hk).trans (S0_arg V b hb)
theorem S1_v1 : S1 V (Proc.devRef .tc Cert.ReferenceIdeal.main_v1) = srcRow (V (Proc.devRef .tc Cert.ReferenceIdeal.main_arg1)) := (p1_keep (S0 V) _ (by decide)).trans (S0_v1 V)
theorem S1_v3 : S1 V (Proc.devRef .tc Cert.ReferenceIdeal.main_v3) = dstRow (V (Proc.devRef .tc Cert.ReferenceIdeal.main_arg1)) := (p1_keep (S0 V) _ (by decide)).trans (S0_v3 V)
theorem S1_v12 : S1 V (Proc.devRef .tc Cert.ReferenceIdeal.main_v12) = invCol (dstRow (V (Proc.devRef .tc Cert.ReferenceIdeal.main_arg1))) := (p1_keep (S0 V) _ (by decide)).trans (S0_v12 V)

theorem S1_v31 : (S1 V (Proc.devRef .tc Cert.ReferenceIdeal.main_v31) : Cert.ReferenceIdeal.S50000x64.Idx → EReal) = refH1 V := by
  refine (p1_out (S0 V)).trans ?_
  rw [S0_arg V Cert.ReferenceIdeal.main_arg0 (by decide), S0_arg V Cert.ReferenceIdeal.main_arg2 (by decide), S0_arg V Cert.ReferenceIdeal.main_arg3 (by decide), S0_arg V Cert.ReferenceIdeal.main_arg4 (by decide), S0_v1, S0_v3, S0_v12]
  rfl

theorem S2_arg (b : Ref Cert.ReferenceIdeal.sig .tc) (hk : b ∈ keepAll) (hb : b ∈ argRefs) : S2 V (Proc.devRef .tc b) = V (Proc.devRef .tc b) :=
  (p2_keep (S1 V) b hk).trans (S1_arg V b hk hb)
theorem S2_v1 : S2 V (Proc.devRef .tc Cert.ReferenceIdeal.main_v1) = srcRow (V (Proc.devRef .tc Cert.ReferenceIdeal.main_arg1)) := (p2_keep (S1 V) _ (by decide)).trans (S1_v1 V)
theorem S2_v3 : S2 V (Proc.devRef .tc Cert.ReferenceIdeal.main_v3) = dstRow (V (Proc.devRef .tc Cert.ReferenceIdeal.main_arg1)) := (p2_keep (S1 V) _ (by decide)).trans (S1_v3 V)
theorem S2_v12 : S2 V (Proc.devRef .tc Cert.ReferenceIdeal.main_v12) = invCol (dstRow (V (Proc.devRef .tc Cert.ReferenceIdeal.main_arg1))) := (p2_keep (S1 V) _ (by decide)).trans (S1_v12 V)

theorem S2_v50 : (S2 V (Proc.devRef .tc Cert.ReferenceIdeal.main_v50) : Cert.ReferenceIdeal.S50000x64.Idx → EReal) = refH2 V := by
  refine (p2_out (S1 V)).trans ?_
  rw [S1_v31, S1_arg V Cert.ReferenceIdeal.main_arg5 (by decide) (by decide), S1_arg V Cert.ReferenceIdeal.main_arg6 (by decide) (by decide), S1_arg V Cert.ReferenceIdeal.main_arg7 (by decide) (by decide), S1_v1, S1_v3, S1_v12]
  rfl

theorem S3_arg (b : Ref Cert.ReferenceIdeal.sig .tc) (hk : b ∈ keepAll) (hb : b ∈ argRefs) : S3 V (Proc.devRef .tc b) = V (Proc.devRef .tc b) :=
  (p3_keep (S2 V) b hk).trans (S2_arg V b hk hb)

theorem S3_v69 : (S3 V (Proc.devRef .tc Cert.ReferenceIdeal.main_v69) : Cert.ReferenceIdeal.S50000x64.Idx → EReal) = refH3 V := by
  refine (p3_out (S2 V)).trans ?_
  rw [S2_v50, S2_arg V Cert.ReferenceIdeal.main_arg8 (by decide) (by decide), S2_arg V Cert.ReferenceIdeal.main_arg9 (by decide) (by decide), S2_arg V Cert.ReferenceIdeal.main_arg10 (by decide) (by decide), S2_v1, S2_v3, S2_v12]
  rfl

end Compose

/-- The reference's result buffer after its operations is the network's function of its argument buffers. -/
theorem ref_out :
    (after (RRun.ops (F := Ideal)) V (Proc.devRef .tc Cert.ReferenceIdeal.main_v74) : Cert.ReferenceIdeal.S50000.Idx → EReal)
      = sage (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9)) (V (Proc.devRef .tc Cert.ReferenceIdeal.main_arg10)) (V (Proc.devRef .tc Cert.ReferenceIdeal.main_arg11)) (V (Proc.devRef .tc Cert.ReferenceIdeal.main_arg12)) := by
  rw [ops_split]
  simp only [after_append]
  refine (p4_out (S3 V)).trans ?_
  rw [S3_v69, S3_arg V Cert.ReferenceIdeal.main_arg11 (by decide) (by decide), S3_arg V Cert.ReferenceIdeal.main_arg12 (by decide) (by decide)]
  rfl

end Cert.Sage

end
-- ==== Proof.lean ====
/-
  Three SAGE layers and a projection, tiled over blocks of 5000 nodes, against the same network written with whole
  arrays.  Both programs gather the source rows, sum them onto the destinations and scale by the reciprocal
  in-degree with the same host operations; the kernel then computes each layer block by block on the matrix unit
  and the reference with whole products.  Over the extended reals a layer's entry at node r reads row r of its
  left operands only, so the ten blocks of 5000 rows are the rows of the whole layer, and a product into a zero
  accumulator is the plain sum: the two results are one function of the argument arrays, with no appeal to
  finiteness.  The kernel's frames are the generated ones; the reference is a straight line of host operations; the
  idealization rewrote nothing.
-/
import proofs.«427629_j87247965651265_3_alg».proof.Defs
import proofs.«427629_j87247965651265_3_alg».proof.Proof.Gen.Kernel
import proofs.«427629_j87247965651265_3_alg».proof.Proof.Gen.Kernel.Skeleton
import proofs.«427629_j87247965651265_3_alg».proof.Proof.Gen.Kernel.Launch
import proofs.«427629_j87247965651265_3_alg».proof.Proof.Gen.Kernel.Points
import proofs.«427629_j87247965651265_3_alg».proof.Proof.Gen.Kernel.Frame
import proofs.«427629_j87247965651265_3_alg».proof.Proof.Gen.KernelIdeal
import proofs.«427629_j87247965651265_3_alg».proof.Proof.Gen.KernelIdeal.Skeleton
import proofs.«427629_j87247965651265_3_alg».proof.Proof.Gen.KernelIdeal.Launch
import proofs.«427629_j87247965651265_3_alg».proof.Proof.Gen.KernelIdeal.Points
import proofs.«427629_j87247965651265_3_alg».proof.Proof.Gen.KernelIdeal.Frame
import proofs.«427629_j87247965651265_3_alg».proof.Proof.Gen.ReferenceIdeal
import proofs.«427629_j87247965651265_3_alg».proof.Proof.Gen.Pre_finite_inputs
import proofs.«427629_j87247965651265_3_alg».proof.Proof.KRun
import proofs.«427629_j87247965651265_3_alg».proof.Proof.KCompose
import proofs.«427629_j87247965651265_3_alg».proof.Proof.RRun
import proofs.«427629_j87247965651265_3_alg».proof.Proof.RKeep
import proofs.«427629_j87247965651265_3_alg».proof.Proof.RValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments: the generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The idealized reference is a straight line of host operations none of which writes an argument. -/
theorem frame_ri : Cert.frame_ReferenceIdeal := fun m ρ _ =>
  (θ_run Cert.ReferenceIdeal.defs _ _).mono (fun r h c =>
    ⟨(h c Cert.ReferenceIdeal.main_arg0).trans (Cert.Sage.ref_keep _ Cert.ReferenceIdeal.main_arg0 (by decide)),
     (h c Cert.ReferenceIdeal.main_arg1).trans (Cert.Sage.ref_keep _ Cert.ReferenceIdeal.main_arg1 (by decide)),
     (h c Cert.ReferenceIdeal.main_arg2).trans (Cert.Sage.ref_keep _ Cert.ReferenceIdeal.main_arg2 (by decide)),
     (h c Cert.ReferenceIdeal.main_arg3).trans (Cert.Sage.ref_keep _ Cert.ReferenceIdeal.main_arg3 (by decide)),
     (h c Cert.ReferenceIdeal.main_arg4).trans (Cert.Sage.ref_keep _ Cert.ReferenceIdeal.main_arg4 (by decide)),
     (h c Cert.ReferenceIdeal.main_arg5).trans (Cert.Sage.ref_keep _ Cert.ReferenceIdeal.main_arg5 (by decide)),
     (h c Cert.ReferenceIdeal.main_arg6).trans (Cert.Sage.ref_keep _ Cert.ReferenceIdeal.main_arg6 (by decide)),
     (h c Cert.ReferenceIdeal.main_arg7).trans (Cert.Sage.ref_keep _ Cert.ReferenceIdeal.main_arg7 (by decide)),
     (h c Cert.ReferenceIdeal.main_arg8).trans (Cert.Sage.ref_keep _ Cert.ReferenceIdeal.main_arg8 (by decide)),
     (h c Cert.ReferenceIdeal.main_arg9).trans (Cert.Sage.ref_keep _ Cert.ReferenceIdeal.main_arg9 (by decide)),
     (h c Cert.ReferenceIdeal.main_arg10).trans (Cert.Sage.ref_keep _ Cert.ReferenceIdeal.main_arg10 (by decide)),
     (h c Cert.ReferenceIdeal.main_arg11).trans (Cert.Sage.ref_keep _ Cert.ReferenceIdeal.main_arg11 (by decide)),
     (h c Cert.ReferenceIdeal.main_arg12).trans (Cert.Sage.ref_keep _ Cert.ReferenceIdeal.main_arg12 (by decide))⟩)
    (Cert.Sage.RRun.run_main (F := Ideal) m ρ)

/-- From memories that agree on the arguments both idealized programs end with the network's function of those
    arguments in their result buffers. -/
theorem algebraic : Cert.algebraic_KernelIdeal_ReferenceIdeal := by
  intro m ρ m' ρ' _ hagree
  refine ⟨fun c => Cert.Sage.sage (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun r h c => ⟨(h c).1.trans (Cert.Sage.kernel_out m ρ c), (h c).2⟩)
      (Cert.Sage.KRun.run_out (F := Ideal) m ρ)
  · refine (θ_run Cert.ReferenceIdeal.defs _ _).mono (fun r h c => ⟨?_, ?_⟩) (Cert.Sage.RRun.run_main (F := Ideal) m' ρ')
    · refine (h c Cert.ReferenceIdeal.main_v74).trans ((Cert.Sage.ref_out (StableHlo.launchContents m' c)).trans ?_)
      obtain ⟨e0, e1, e2, e3, e4, e5, e6, e7, e8, e9, e10, e11, e12⟩ := hagree c
      show Cert.Sage.sage (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
      rw [e0, e1, e2, e3, e4, e5, e6, e7, e8, e9, e10, e11, e12]
    · exact ⟨(h c Cert.ReferenceIdeal.main_arg0).trans (Cert.Sage.ref_keep _ Cert.ReferenceIdeal.main_arg0 (by decide)),
        (h c Cert.ReferenceIdeal.main_arg1).trans (Cert.Sage.ref_keep _ Cert.ReferenceIdeal.main_arg1 (by decide)),
        (h c Cert.ReferenceIdeal.main_arg2).trans (Cert.Sage.ref_keep _ Cert.ReferenceIdeal.main_arg2 (by decide)),
        (h c Cert.ReferenceIdeal.main_arg3).trans (Cert.Sage.ref_keep _ Cert.ReferenceIdeal.main_arg3 (by decide)),
        (h c Cert.ReferenceIdeal.main_arg4).trans (Cert.Sage.ref_keep _ Cert.ReferenceIdeal.main_arg4 (by decide)),
        (h c Cert.ReferenceIdeal.main_arg5).trans (Cert.Sage.ref_keep _ Cert.ReferenceIdeal.main_arg5 (by decide)),
        (h c Cert.ReferenceIdeal.main_arg6).trans (Cert.Sage.ref_keep _ Cert.ReferenceIdeal.main_arg6 (by decide)),
        (h c Cert.ReferenceIdeal.main_arg7).trans (Cert.Sage.ref_keep _ Cert.ReferenceIdeal.main_arg7 (by decide)),
        (h c Cert.ReferenceIdeal.main_arg8).trans (Cert.Sage.ref_keep _ Cert.ReferenceIdeal.main_arg8 (by decide)),
        (h c Cert.ReferenceIdeal.main_arg9).trans (Cert.Sage.ref_keep _ Cert.ReferenceIdeal.main_arg9 (by decide)),
        (h c Cert.ReferenceIdeal.main_arg10).trans (Cert.Sage.ref_keep _ Cert.ReferenceIdeal.main_arg10 (by decide)),
        (h c Cert.ReferenceIdeal.main_arg11).trans (Cert.Sage.ref_keep _ Cert.ReferenceIdeal.main_arg11 (by decide)),
        (h c Cert.ReferenceIdeal.main_arg12).trans (Cert.Sage.ref_keep _ Cert.ReferenceIdeal.main_arg12 (by decide))⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
